-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S2x400000 : Shape := ⟨2, ![2, 400000]⟩
abbrev S384x50 : Shape := ⟨2, ![384, 50]⟩
abbrev S50 : Shape := ⟨1, ![50]⟩
abbrev S50x25 : Shape := ⟨2, ![50, 25]⟩
abbrev S25 : Shape := ⟨1, ![25]⟩
abbrev S25x1 : Shape := ⟨2, ![25, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x50 : S_.BroadcastsInDim S384x50 (![] : Fin 0 → Fin S384x50.rank)
  reducesTo_S384x50_S_d0_1 : S384x50.ReducesTo [0, 1] S_
  bcast_S_S50 : S_.BroadcastsInDim S50 (![] : Fin 0 → Fin S50.rank)
  reducesTo_S50_S_d0 : S50.ReducesTo [0] S_
  bcast_S_S50x25 : S_.BroadcastsInDim S50x25 (![] : Fin 0 → Fin S50x25.rank)
  reducesTo_S50x25_S_d0_1 : S50x25.ReducesTo [0, 1] S_
  bcast_S_S25 : S_.BroadcastsInDim S25 (![] : Fin 0 → Fin S25.rank)
  reducesTo_S25_S_d0 : S25.ReducesTo [0] S_
  bcast_S_S25x1 : S_.BroadcastsInDim S25x1 (![] : Fin 0 → Fin S25x1.rank)
  reducesTo_S25x1_S_d0_1 : S25x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S50x25 .f32) (main_arg6 : FVec F S25 .f32) (main_arg7 : FVec F S25x1 .f32) (main_arg8 : FVec F S1 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50x25 .f32 := Host.absf main_arg5
  let main_cst_6 : FVec F S_ .f32 := constant S_ .f32 0x7F800000#32
  let main_v20 : FVec F S50x25 .f32 := broadcastInDim S50x25 ![] bcast_S_S50x25 main_cst_6
  let main_v21 : IVec S50x25 1 := cmpf .olt main_v19 main_v20
  let main_c_7 : IVec S_ 1 := constantI S_ 1 1#1
  let main_v22 : IVec S_ 1 := (fun x v => Host.reduce IntOp.andi x v reducesTo_S50x25_S_d0_1 h_S_) main_v21 main_c_7
  let main_v23 : IVec S_ 1 := andi main_v18 main_v22
  let main_v24 : FVec F S25 .f32 := Host.absf main_arg6
  let main_cst_8 : FVec F S_ .f32 := constant S_ .f32 0x7F800000#32
  let main_v25 : FVec F S25 .f32 := broadcastInDim S25 ![] bcast_S_S25 main_cst_8
  let main_v26 : IVec S25 1 := cmpf .olt main_v24 main_v25
  let main_c_9 : IVec S_ 1 := constantI S_ 1 1#1
  let main_v27 : IVec S_ 1 := (fun x v => Host.reduce IntOp.andi x v reducesTo_S25_S_d0 h_S_) main_v26 main_c_9
  let main_v28 : IVec S_ 1 := andi main_v23 main_v27
  let main_v29 : FVec F S25x1 .f32 := Host.absf main_arg7
  let main_cst_10 : FVec F S_ .f32 := constant S_ .f32 0x7F800000#32
  let main_v30 : FVec F S25x1 .f32 := broadcastInDim S25x1 ![] bcast_S_S25x1 main_cst_10
  let main_v31 : IVec S25x1 1 := cmpf .olt main_v29 main_v30
  let main_c_11 : IVec S_ 1 := constantI S_ 1 1#1
  let main_v32 : IVec S_ 1 := (fun x v => Host.reduce IntOp.andi x v reducesTo_S25x1_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S400000x128 .f32) (main_arg2 : IVec S2x400000 32) (main_arg3 : FVec F S384x50 .f32) (main_arg4 : FVec F S50 .f32) (main_arg5 : FVec F S50x25 .f32) (main_arg6 : FVec F S25 .f32) (main_arg7 : FVec F S25x1 .f32) (main_arg8 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x50 .f32 := Host.absf main_arg3
  let main_cst_2 : FVec F S_ .f32 := constant S_ .f32 0x7F800000#32
  let main_v10 : FVec F S384x50 .f32 := broadcastInDim S384x50 ![] bcast_S_S384x50 main_cst_2
  let main_v11 : IVec S384x50 1 := cmpf .olt main_v9 main_v10
  let main_c_3 : IVec S_ 1 := constantI S_ 1 1#1
  let main_v12 : IVec S_ 1 := (fun x v => Host.reduce IntOp.andi x v reducesTo_S384x50_S_d0_1 h_S_) main_v11 main_c_3
  let main_v13 : IVec S_ 1 := andi main_v8 main_v12
  let main_v14 : FVec F S50 .f32 := Host.absf main_arg4
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg5 main_arg6 main_arg7 main_arg8 main_v13 main_v16
-- ==== Kernel.lean ====
abbrev S50000x128 : Shape := ⟨2, ![50000, 128]⟩
abbrev S400000x128 : Shape := ⟨2, ![400000, 128]⟩
abbrev S2x400000 : Shape := ⟨2, ![2, 400000]⟩
abbrev S384x50 : Shape := ⟨2, ![384, 50]⟩
abbrev S50 : Shape := ⟨1, ![50]⟩
abbrev S50x25 : Shape := ⟨2, ![50, 25]⟩
abbrev S25 : Shape := ⟨1, ![25]⟩
abbrev S25x1 : Shape := ⟨2, ![25, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S1x1 : Shape := ⟨2, ![1, 1]⟩
abbrev S409600x128 : Shape := ⟨2, ![409600, 128]⟩
abbrev S409600 : Shape := ⟨1, ![409600]⟩
abbrev S5120x128 : Shape := ⟨2, ![5120, 128]⟩
abbrev S5120 : Shape := ⟨1, ![5120]⟩
abbrev S128x50 : Shape := ⟨2, ![128, 50]⟩
abbrev S5120x50 : Shape := ⟨2, ![5120, 50]⟩
abbrev S1x50 : Shape := ⟨2, ![1, 50]⟩
abbrev S5120x25 : Shape := ⟨2, ![5120, 25]⟩
abbrev S1x25 : Shape := ⟨2, ![1, 25]⟩
abbrev S5120x1 : Shape := ⟨2, ![5120, 1]⟩
abbrev S1x5120 : Shape := ⟨2, ![1, 5120]⟩

abbrev nBuf : Space → Nat
  | .hbm => 72
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S2x400000, .i32⟩
  | .hbm, ⟨3, _⟩ => ⟨S384x50, .f32⟩
  | .hbm, ⟨4, _⟩ => ⟨S50, .f32⟩
  | .hbm, ⟨5, _⟩ => ⟨S50x25, .f32⟩
  | .hbm, ⟨6, _⟩ => ⟨S25, .f32⟩
  | .hbm, ⟨7, _⟩ => ⟨S25x1, .f32⟩
  | .hbm, ⟨8, _⟩ => ⟨S1, .f32⟩
  | .hbm, ⟨9, _⟩ => ⟨S1x400000, .i32⟩
  | .hbm, ⟨10, _⟩ => ⟨S400000, .i32⟩
  | .hbm, ⟨11, _⟩ => ⟨S1x400000, .i32⟩
  | .hbm, ⟨12, _⟩ => ⟨S400000, .i32⟩
  | .hbm, ⟨13, _⟩ => ⟨S_, .i32⟩
  | .hbm, ⟨14, _⟩ => ⟨S400000, .i32⟩
  | .hbm, ⟨15, _⟩ => ⟨S400000, .i1⟩
  | .hbm, ⟨16, _⟩ => ⟨S_, .i32⟩
  | .hbm, ⟨17, _⟩ => ⟨S400000, .i32⟩
  | .hbm, ⟨18, _⟩ => ⟨S400000, .i32⟩
  | .hbm, ⟨19, _⟩ => ⟨S400000, .i32⟩
  | .hbm, ⟨20, _⟩ => ⟨S400000x1, .i32⟩
  | .hbm, ⟨21, _⟩ => ⟨S1, .i32⟩
  | .hbm, ⟨22, _⟩ => ⟨S_, .i32⟩
  | .hbm, ⟨23, _⟩ => ⟨S400000x1, .i32⟩
  | .hbm, ⟨24, _⟩ => ⟨S400000x1, .i1⟩
  | .hbm, ⟨25, _⟩ => ⟨S1x1, .i32⟩
  | .hbm, ⟨26, _⟩ => ⟨S400000x1, .i32⟩
  | .hbm, ⟨27, _⟩ => ⟨S400000x1, .i1⟩
  | .hbm, ⟨28, _⟩ => ⟨S400000x1, .i1⟩
  | .hbm, ⟨29, _⟩ => ⟨S_, .i1⟩
  | .hbm, ⟨30, _⟩ => ⟨S400000, .i1⟩
  | .hbm, ⟨31, _⟩ => ⟨S400000x128, .f32⟩
  | .hbm, ⟨32, _⟩ => ⟨S400000x128, .i1⟩
  | .hbm, ⟨33, _⟩ => ⟨S_, .f32⟩
  | .hbm, ⟨34, _⟩ => ⟨S400000x128, .f32⟩
  | .hbm, ⟨35, _⟩ => ⟨S400000x128, .f32⟩
  | .hbm, ⟨36, _⟩ => ⟨S_, .i32⟩
  | .hbm, ⟨37, _⟩ => ⟨S400000, .i32⟩
  | .hbm, ⟨38, _⟩ => ⟨S400000, .i1⟩
  | .hbm, ⟨39, _⟩ => ⟨S_, .i32⟩
  | .hbm, ⟨40, _⟩ => ⟨S400000, .i32⟩
  | .hbm, ⟨41, _⟩ => ⟨S400000, .i32⟩
  | .hbm, ⟨42, _⟩ => ⟨S400000, .i32⟩
  | .hbm, ⟨43, _⟩ => ⟨S400000x1, .i32⟩
  | .hbm, ⟨44, _⟩ => ⟨S1, .i32⟩
  | .hbm, ⟨45, _⟩ => ⟨S_, .i32⟩
  | .hbm, ⟨46, _⟩ => ⟨S400000x1, .i32⟩
  | .hbm, ⟨47, _⟩ => ⟨S400000x1, .i1⟩
  | .hbm, ⟨48, _⟩ => ⟨S1x1, .i32⟩
  | .hbm, ⟨49, _⟩ => ⟨S400000x1, .i32⟩
  | .hbm, ⟨50, _⟩ => ⟨S400000x1, .i1⟩
  | .hbm, ⟨51, _⟩ => ⟨S400000x1, .i1⟩
  | .hbm, ⟨52, _⟩ => ⟨S_, .i1⟩
  | .hbm, ⟨53, _⟩ => ⟨S400000, .i1⟩
  | .hbm, ⟨54, _⟩ => ⟨S400000x128, .f32⟩
  | .hbm, ⟨55, _⟩ => ⟨S400000x128, .i1⟩
  | .hbm, ⟨56, _⟩ => ⟨S_, .f32⟩
  | .hbm, ⟨57, _⟩ => ⟨S400000x128, .f32⟩
  | .hbm, ⟨58, _⟩ => ⟨S400000x128, .f32⟩
  | .hbm, ⟨59, _⟩ => ⟨S_, .i32⟩
  | .hbm, ⟨60, _⟩ => ⟨S_, .f32⟩
  | .hbm, ⟨61, _⟩ => ⟨S409600x128, .f32⟩
  | .hbm, ⟨62, _⟩ => ⟨S_, .i32⟩
  | .hbm, ⟨63, _⟩ => ⟨S_, .f32⟩
  | .hbm, ⟨64, _⟩ => ⟨S409600x128, .f32⟩
  | .hbm, ⟨65, _⟩ => ⟨S_, .i32⟩
  | .hbm, ⟨66, _⟩ => ⟨S_, .f32⟩
  | .hbm, ⟨67, _⟩ => ⟨S409600x128, .f32⟩
  | .hbm, ⟨68, _⟩ => ⟨S384x50, .bf16⟩
  | .hbm, ⟨69, _⟩ => ⟨S409600, .f32⟩
  | .hbm, ⟨70, _⟩ => ⟨S400000, .f32⟩
  | .hbm, ⟨71, _⟩ => ⟨S400000x1, .f32⟩
  | .local _ .vmem, ⟨0, _⟩ => ⟨S5120x128, .f32⟩
  | .local _ .vmem, ⟨1, _⟩ => ⟨S5120x128, .f32⟩
  | .local _ .vmem, ⟨2, _⟩ => ⟨S5120x128, .f32⟩
  | .local _ .vmem, ⟨3, _⟩ => ⟨S5120x128, .f32⟩
  | .local _ .vmem, ⟨4, _⟩ => ⟨S5120x128, .f32⟩
  | .local _ .vmem, ⟨5, _⟩ => ⟨S5120x128, .f32⟩
  | .local _ .vmem, ⟨6, _⟩ => ⟨S384x50, .bf16⟩
  | .local _ .vmem, ⟨7, _⟩ => ⟨S50, .f32⟩
  | .local _ .vmem, ⟨8, _⟩ => ⟨S50x25, .f32⟩
  | .local _ .vmem, ⟨9, _⟩ => ⟨S25, .f32⟩
  | .local _ .vmem, ⟨10, _⟩ => ⟨S25x1, .f32⟩
  | .local _ .vmem, ⟨11, _⟩ => ⟨S1, .f32⟩
  | .local _ .vmem, ⟨12, _⟩ => ⟨S5120, .f32⟩
  | .local _ .vmem, ⟨13, _⟩ => ⟨S5120, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v5 : Ref sig .tc := ⟨.hbm, 58, rfl⟩
abbrev main_c : Ref sig .tc := ⟨.hbm, 59, rfl⟩
abbrev main_call2_v0 : Ref sig .tc := ⟨.hbm, 60, rfl⟩
abbrev main_v6 : Ref sig .tc := ⟨.hbm, 61, rfl⟩
abbrev main_c_0 : Ref sig .tc := ⟨.hbm, 62, rfl⟩
abbrev main_call3_v0 : Ref sig .tc := ⟨.hbm, 63, rfl⟩
abbrev main_v7 : Ref sig .tc := ⟨.hbm, 64, rfl⟩
abbrev main_c_1 : Ref sig .tc := ⟨.hbm, 65, rfl⟩
abbrev main_call4_v0 : Ref sig .tc := ⟨.hbm, 66, rfl⟩
abbrev main_v8 : Ref sig .tc := ⟨.hbm, 67, rfl⟩
abbrev main_v9 : Ref sig .tc := ⟨.hbm, 68, rfl⟩
abbrev main_v10 : Ref sig .tc := ⟨.hbm, 69, rfl⟩
abbrev main_v11 : Ref sig .tc := ⟨.hbm, 70, rfl⟩
abbrev main_v12 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 40], ![false, false]⟩

def cc0_transform_0 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c40_i32 : BitVec 32 := 40#32
  let v0 : BitVec 32 := Scalar.muli arg0 c40_i32
  let v1 : BitVec 32 := Scalar.addi v0 arg1
  let c0_i32 : BitVec 32 := 0#32
  ![v1.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5120x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5120x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S384x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S50x25 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S25 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S25x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S5120 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  pads_S400000x128_S409600x128_096000_000 : S400000x128.Pads (![0, 0] : Fin 2 → Nat) ![9600, 0] ![0, 0] S409600x128
  bitsLt_bf16_f32 : FTy.bits .bf16 < FTy.bits .f32
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  inb_S384x50_S384x50_0_0 : ∀ a, (![0, 0] : Fin 2 → Nat) a + S384x50.size a ≤ S384x50.size a
  h_S384x50 : 0 < S384x50.numel
  shapeCasts_S384x50_S384x50 : S384x50.ShapeCasts S384x50
  slices_S384x50_o0_0_S128x50 : S384x50.Slices ![0, 0] S128x50
  slices_S384x50_o128_0_S128x50 : S384x50.Slices ![128, 0] S128x50
  slices_S384x50_o256_0_S128x50 : S384x50.Slices ![256, 0] S128x50
  inb_S50_S50_0 : ∀ a, (![0] : Fin 1 → Nat) a + S50.size a ≤ S50.size a
  h_S50 : 0 < S50.numel
  shapeCasts_S50_S1x50 : S50.ShapeCasts S1x50
  broadcasts_S1x50_S5120x50 : S1x50.Broadcasts S5120x50
  inb_S50x25_S50x25_0_0 : ∀ a, (![0, 0] : Fin 2 → Nat) a + S50x25.size a ≤ S50x25.size a
  h_S50x25 : 0 < S50x25.numel
  inb_S25_S25_0 : ∀ a, (![0] : Fin 1 → Nat) a + S25.size a ≤ S25.size a
  h_S25 : 0 < S25.numel
  shapeCasts_S25_S1x25 : S25.ShapeCasts S1x25
  broadcasts_S1x25_S5120x25 : S1x25.Broadcasts S5120x25
  inb_S25x1_S25x1_0_0 : ∀ a, (![0, 0] : Fin 2 → Nat) a + S25x1.size a ≤ S25x1.size a
  h_S25x1 : 0 < S25x1.numel
  inb_S1_S1_0 : ∀ a, (![0] : Fin 1 → Nat) a + S1.size a ≤ S1.size a
  h_S1 : 0 < S1.numel
  shapeCasts_S1_S1x1 : S1.ShapeCasts S1x1
  broadcasts_S1x1_S5120x1 : S1x1.Broadcasts S5120x1
  transposes_S5120x1_p1_0_S1x5120 : S5120x1.Transposes [1, 0] S1x5120
  shapeCasts_S1x5120_S5120 : S1x5120.ShapeCasts S5120
  inb_S5120_S5120_0 : ∀ a, (![0] : Fin 1 → Nat) a + S5120.size a ≤ S5120.size a
  h_S5120 : 0 < S5120.numel
  slices_S409600_S400000_0 : S409600.Slices ![0] S400000
  shapeCasts_S400000_S400000x1 : S400000.ShapeCasts S400000x1
  gather_S50000x128_S400000x1_S400000x128_1_0_n_n_0_1_1128_wf : GatherDims.WF S50000x128 S400000x1 S400000x128 [1] [0] [] [0] [] 1 ![1, 128]
  dot_S5120x128_S128x50_S5120x50_1_0_0_1_n_n_wf : DotDims.WF S5120x128 S128x50 S5120x50 [1] [0] [0] [1] [] []
  dot_S5120x50_S50x25_S5120x25_1_0_0_1_n_n_wf : DotDims.WF S5120x50 S50x25 S5120x25 [1] [0] [0] [1] [] []
  dot_S5120x25_S25x1_S5120x1_1_0_0_1_n_n_wf : DotDims.WF S5120x25 S25x1 S5120x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S409600x128.size a
  hwx0_0 : ∀ i : grid0.Coords, EltTy.bits .f32 = 32 ∨ (Rect.block (s := S409600x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S409600x128.size a
  hwx0_1 : ∀ i : grid0.Coords, EltTy.bits .f32 = 32 ∨ (Rect.block (s := S409600x128) S5120x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x128.size a ≤ S409600x128.size a
  hwx0_2 : ∀ i : grid0.Coords, EltTy.bits .f32 = 32 ∨ (Rect.block (s := S409600x128) S5120x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x50.size a ≤ S384x50.size a
  hwx0_3 : ∀ i : grid0.Coords, EltTy.bits .bf16 = 32 ∨ (Rect.block (s := S384x50) S384x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50.size a ≤ S50.size a
  hwx0_4 : ∀ i : grid0.Coords, EltTy.bits .f32 = 32 ∨ (Rect.block (s := S50) S50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x25.size a ≤ S50x25.size a
  hwx0_5 : ∀ i : grid0.Coords, EltTy.bits .f32 = 32 ∨ (Rect.block (s := S50x25) S50x25.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S25.size a ≤ S25.size a
  hwx0_6 : ∀ i : grid0.Coords, EltTy.bits .f32 = 32 ∨ (Rect.block (s := S25) S25.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S25x1.size a ≤ S25x1.size a
  hwx0_7 : ∀ i : grid0.Coords, EltTy.bits .f32 = 32 ∨ (Rect.block (s := S25x1) S25x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5120.size a ≤ S409600.size a
  hwx0_9 : ∀ i : grid0.Coords, EltTy.bits .f32 = 32 ∨ (Rect.block (s := S409600) S5120.size (cc0_transform_9 i) (hinb0_9 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S5120x128_S128x50_S5120x50_1_0_0_1_n_n : DotDims S5120x128 S128x50 S5120x50 where
  lhsContracting := [1]
  rhsContracting := [0]
  lhsNonContracting := [0]
  rhsNonContracting := [1]
  lhsBatch := []
  rhsBatch := []
  wf := dot_S5120x128_S128x50_S5120x50_1_0_0_1_n_n_wf
def dot_S5120x50_S50x25_S5120x25_1_0_0_1_n_n : DotDims S5120x50 S50x25 S5120x25 where
  lhsContracting := [1]
  rhsContracting := [0]
  lhsNonContracting := [0]
  rhsNonContracting := [1]
  lhsBatch := []
  rhsBatch := []
  wf := dot_S5120x50_S50x25_S5120x25_1_0_0_1_n_n_wf
def dot_S5120x25_S25x1_S5120x1_1_0_0_1_n_n : DotDims S5120x25 S25x1 S5120x1 where
  lhsContracting := [1]
  rhsContracting := [0]
  lhsNonContracting := [0]
  rhsNonContracting := [1]
  lhsBatch := []
  rhsBatch := []
  wf := dot_S5120x25_S25x1_S5120x1_1_0_0_1_n_n_wf

abbrev win0_0 : Pipeline.Window sig grid0 :=
  Pipeline.Window.ofSpec (Memref.whole main_v6) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5120x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S384x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S50x25.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S25.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S25x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S5120.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S2x400000 : Shape := ⟨2, ![2, 400000]⟩
abbrev S384x50 : Shape := ⟨2, ![384, 50]⟩
abbrev S50 : Shape := ⟨1, ![50]⟩
abbrev S50x25 : Shape := ⟨2, ![50, 25]⟩
abbrev S25 : Shape := ⟨1, ![25]⟩
abbrev S25x1 : Shape := ⟨2, ![25, 1]⟩
abbrev S1 : Shape := ⟨1, ![1]⟩
abbrev S400000x2 : Shape := ⟨2, ![400000, 2]⟩
abbrev S_ : Shape := ⟨0, ![]⟩
abbrev S400000x2x1 : Shape := ⟨3, ![400000, 2, 1]⟩
abbrev S1x1x1 : Shape := ⟨3, ![1, 1, 1]⟩
abbrev S400000x2x128 : Shape := ⟨3, ![400000, 2, 128]⟩
abbrev S400000x256 : Shape := ⟨2, ![400000, 256]⟩
abbrev S400000x384 : Shape := ⟨2, ![400000, 384]⟩
abbrev S400000x50 : Shape := ⟨2, ![400000, 50]⟩
abbrev S1x50 : Shape := ⟨2, ![1, 50]⟩
abbrev S400000x25 : Shape := ⟨2, ![400000, 25]⟩
abbrev S1x25 : Shape := ⟨2, ![1, 25]⟩
abbrev S400000x1 : Shape := ⟨2, ![400000, 1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S2x400000, .i32⟩
  | .hbm, ⟨3, _⟩ => ⟨S384x50, .f32⟩
  | .hbm, ⟨4, _⟩ => ⟨S50, .f32⟩
  | .hbm, ⟨5, _⟩ => ⟨S50x25, .f32⟩
  | .hbm, ⟨6, _⟩ => ⟨S25, .f32⟩
  | .hbm, ⟨7, _⟩ => ⟨S25x1, .f32⟩
  | .hbm, ⟨8, _⟩ => ⟨S1, .f32⟩
  | .hbm, ⟨9, _⟩ => ⟨S400000x2, .i32⟩
  | .hbm, ⟨10, _⟩ => ⟨S_, .i32⟩
  | .hbm, ⟨11, _⟩ => ⟨S400000x2, .i32⟩
  | .hbm, ⟨12, _⟩ => ⟨S400000x2, .i1⟩
  | .hbm, ⟨13, _⟩ => ⟨S_, .i32⟩
  | .hbm, ⟨14, _⟩ => ⟨S400000x2, .i32⟩
  | .hbm, ⟨15, _⟩ => ⟨S400000x2, .i32⟩
  | .hbm, ⟨16, _⟩ => ⟨S400000x2, .i32⟩
  | .hbm, ⟨17, _⟩ => ⟨S400000x2x1, .i32⟩
  | .hbm, ⟨18, _⟩ => ⟨S1, .i32⟩
  | .hbm, ⟨19, _⟩ => ⟨S_, .i32⟩
  | .hbm, ⟨20, _⟩ => ⟨S400000x2x1, .i32⟩
  | .hbm, ⟨21, _⟩ => ⟨S400000x2x1, .i1⟩
  | .hbm, ⟨22, _⟩ => ⟨S1x1x1, .i32⟩
  | .hbm, ⟨23, _⟩ => ⟨S400000x2x1, .i32⟩
  | .hbm, ⟨24, _⟩ => ⟨S400000x2x1, .i1⟩
  | .hbm, ⟨25, _⟩ => ⟨S400000x2x1, .i1⟩
  | .hbm, ⟨26, _⟩ => ⟨S_, .i1⟩
  | .hbm, ⟨27, _⟩ => ⟨S400000x2, .i1⟩
  | .hbm, ⟨28, _⟩ => ⟨S400000x2x128, .f32⟩
  | .hbm, ⟨29, _⟩ => ⟨S400000x2x128, .i1⟩
  | .hbm, ⟨30, _⟩ => ⟨S_, .f32⟩
  | .hbm, ⟨31, _⟩ => ⟨S400000x2x128, .f32⟩
  | .hbm, ⟨32, _⟩ => ⟨S400000x2x128, .f32⟩
  | .hbm, ⟨33, _⟩ => ⟨S400000x256, .f32⟩
  | .hbm, ⟨34, _⟩ => ⟨S_, .f32⟩
  | .hbm, ⟨35, _⟩ => ⟨S400000x256, .f32⟩
  | .hbm, ⟨36, _⟩ => ⟨S400000x256, .f32⟩
  | .hbm, ⟨37, _⟩ => ⟨S400000x384, .f32⟩
  | .hbm, ⟨38, _⟩ => ⟨S400000x50, .f32⟩
  | .hbm, ⟨39, _⟩ => ⟨S1x50, .f32⟩
  | .hbm, ⟨40, _⟩ => ⟨S400000x50, .f32⟩
  | .hbm, ⟨41, _⟩ => ⟨S400000x50, .f32⟩
  | .hbm, ⟨42, _⟩ => ⟨S_, .f32⟩
  | .hbm, ⟨43, _⟩ => ⟨S400000x50, .f32⟩
  | .hbm, ⟨44, _⟩ => ⟨S400000x50, .f32⟩
  | .hbm, ⟨45, _⟩ => ⟨S400000x25, .f32⟩
  | .hbm, ⟨46, _⟩ => ⟨S1x25, .f32⟩
  | .hbm, ⟨47, _⟩ => ⟨S400000x25, .f32⟩
  | .hbm, ⟨48, _⟩ => ⟨S400000x25, .f32⟩
  | .hbm, ⟨49, _⟩ => ⟨S_, .f32⟩
  | .hbm, ⟨50, _⟩ => ⟨S400000x25, .f32⟩
  | .hbm, ⟨51, _⟩ => ⟨S400000x25, .f32⟩
  | .hbm, ⟨52, _⟩ => ⟨S400000x1, .f32⟩
  | .hbm, ⟨53, _⟩ => ⟨S1x1, .f32⟩
  | .hbm, ⟨54, _⟩ => ⟨S400000x1, .f32⟩
  | .hbm, ⟨55, _⟩ => ⟨S400000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_call1_cst : Ref sig .tc := ⟨.hbm, 34, rfl⟩
abbrev main_call1_v0 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_call2_cst : Ref sig .tc := ⟨.hbm, 42, rfl⟩
abbrev main_call2_v0 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_call3_cst : Ref sig .tc := ⟨.hbm, 49, rfl⟩
abbrev main_call3_v0 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩

abbrev nD : Nat := 1
abbrev τ : Topo := Topo.v7x

variable {F : FTy → Type} [FloatOps F]

class Facts₀ : Prop where
  transposes_S2x400000_S400000x2_1_0 : S2x400000.Transposes [1, 0] S400000x2
  bcast_S_S400000x2 : S_.BroadcastsInDim S400000x2 (![] : Fin 0 → Fin S400000x2.rank)
  bcast_S400000x2_S400000x2x1_0_1 : S400000x2.BroadcastsInDim S400000x2x1 (![0, 1] : Fin 2 → Fin S400000x2x1.rank)
  bcast_S_S400000x2x1 : S_.BroadcastsInDim S400000x2x1 (![] : Fin 0 → Fin S400000x2x1.rank)
  bcast_S1_S1x1x1_2 : S1.BroadcastsInDim S1x1x1 (![2] : Fin 1 → Fin S1x1x1.rank)
  bcast_S1x1x1_S400000x2x1_0_1_2 : S1x1x1.BroadcastsInDim S400000x2x1 (![0, 1, 2] : Fin 3 → Fin S400000x2x1.rank)
  reducesTo_S400000x2x1_S400000x2_d2 : S400000x2x1.ReducesTo [2] S400000x2
  h_S_ : 0 < S_.numel
  bcast_S400000x2_S400000x2x128_0_1 : S400000x2.BroadcastsInDim S400000x2x128 (![0, 1] : Fin 2 → Fin S400000x2x128.rank)
  bcast_S_S400000x2x128 : S_.BroadcastsInDim S400000x2x128 (![] : Fin 0 → Fin S400000x2x128.rank)
  shapeCasts_S400000x2x128_S400000x256 : S400000x2x128.ShapeCasts S400000x256
  bcast_S_S400000x256 : S_.BroadcastsInDim S400000x256 (![] : Fin 0 → Fin S400000x256.rank)
  concatenates_S400000x256_S400000x128_S400000x384_d1 : Shape.Concatenates [S400000x256, S400000x128] S400000x384 1
  bcast_S50_S1x50_1 : S50.BroadcastsInDim S1x50 (![1] : Fin 1 → Fin S1x50.rank)
  bcast_S1x50_S400000x50_0_1 : S1x50.BroadcastsInDim S400000x50 (![0, 1] : Fin 2 → Fin S400000x50.rank)
  bcast_S_S400000x50 : S_.BroadcastsInDim S400000x50 (![] : Fin 0 → Fin S400000x50.rank)
  bcast_S25_S1x25_1 : S25.BroadcastsInDim S1x25 (![1] : Fin 1 → Fin S1x25.rank)
  bcast_S1x25_S400000x25_0_1 : S1x25.BroadcastsInDim S400000x25 (![0, 1] : Fin 2 → Fin S400000x25.rank)
  bcast_S_S400000x25 : S_.BroadcastsInDim S400000x25 (![] : Fin 0 → Fin S400000x25.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  gather_S50000x128_S400000x2x1_S400000x2x128_2_0_n_n_0_2_1128_wf : GatherDims.WF S50000x128 S400000x2x1 S400000x2x128 [2] [0] [] [0] [] 2 ![1, 128]
  dot_S400000x384_S384x50_S400000x50_1_0_0_1_n_n_wf : DotDims.WF S400000x384 S384x50 S400000x50 [1] [0] [0] [1] [] []
  dot_S400000x50_S50x25_S400000x25_1_0_0_1_n_n_wf : DotDims.WF S400000x50 S50x25 S400000x25 [1] [0] [0] [1] [] []
  dot_S400000x25_S25x1_S400000x1_1_0_0_1_n_n_wf : DotDims.WF S400000x25 S25x1 S400000x1 [1] [0] [0] [1] [] []

variable [Facts₀]

def gather_S50000x128_S400000x2x1_S400000x2x128_2_0_n_n_0_2_1128 : GatherDims S50000x128 S400000x2x1 S400000x2x128 where
  offsetDims := [2]
  collapsedSliceDims := [0]
  operandBatchingDims := []
  startIndicesBatchingDims := []
  startIndexMap := [0]
  indexVectorDim := 2
  sliceSizes := ![1, 128]
  wf := gather_S50000x128_S400000x2x1_S400000x2x128_2_0_n_n_0_2_1128_wf
def dot_S400000x384_S384x50_S400000x50_1_0_0_1_n_n : DotDims S400000x384 S384x50 S400000x50 where
  lhsContracting := [1]
  rhsContracting := [0]
  lhsNonContracting := [0]
  rhsNonContracting := [1]
  lhsBatch := []
  rhsBatch := []
  wf := dot_S400000x384_S384x50_S400000x50_1_0_0_1_n_n_wf
def dot_S400000x50_S50x25_S400000x25_1_0_0_1_n_n : DotDims S400000x50 S50x25 S400000x25 where
  lhsContracting := [1]
  rhsContracting := [0]
  lhsNonContracting := [0]
  rhsNonContracting := [1]
  lhsBatch := []
  rhsBatch := []
  wf := dot_S400000x50_S50x25_S400000x25_1_0_0_1_n_n_wf
def dot_S400000x25_S25x1_S400000x1_1_0_0_1_n_n : DotDims S400000x25 S25x1 S400000x1 where
  lhsContracting := [1]
  rhsContracting := [0]
  lhsNonContracting := [0]
  rhsNonContracting := [1]
  lhsBatch := []
  rhsBatch := []
  wf := dot_S400000x25_S25x1_S400000x1_1_0_0_1_n_n_wf

class Facts : Prop extends Facts₀ where

variable [Facts]
-- ==== Proof.Spec.lean ====
/-
  The mathematics both programs compute, one edge at a time, on the extended reals.

  For edge `e` with endpoint words `s = edge_index[0, e]`, `d = edge_index[1, e]`:
    row(v)   = the table row `x[v']` where `v' = v + 50000` if `v < 0` else `v`, when `0 ≤ v' ≤ 49999`;
               otherwise every entry is the fill value (the word 0x7FC00000 read as an extended real)
    h        = [max(row(s), 0), max(row(d), 0), edge_attr[e]]                 (384 entries)
    out(e)   = max(max(h · W1 + b1, 0) · W2 + b2, 0) · W3 + b3
  The two programs differ only in how the first product is grouped: one sum over the 384 entries of `h`, or
  three sums over the three 128-entry pieces added left to right. Addition on the extended reals is commutative
  and associative, so the groupings agree with no finiteness assumption (`pre1K_eq_pre1R`).
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- jnp.take's index normalisation: a negative word counts from the end of the 50000 rows. -/
def normIdx (v : BitVec 32) : BitVec 32 :=
  Scalar.select (IntOp.cmpi .slt v 0#32) (IntOp.addi v 50000#32) v

/-- The bit saying that the normalised word names a row of the table. -/
def rowOk (v : BitVec 32) : BitVec 1 :=
  IntOp.andi (IntOp.cmpi .sge (normIdx v) 0#32) (IntOp.cmpi .sle (normIdx v) 49999#32)

/-- Entry `k` of the table row the word `v` selects: the row's entry when the word is in range (read signed and
    clamped into the table, which changes nothing in range), the fill value otherwise. -/
def takeVal (x : (⟨2, ![50000, 128]⟩ : Shape).Idx → EReal) (v : BitVec 32) (k : Fin 128) : EReal :=
  if rowOk v = 1#1 then x (ix2 ⟨min (normIdx v).toInt.toNat 49999, by omega⟩ k)
  else Ideal.ofBits .f32 0x7FC00000#32

/-- First layer before its activation, grouped as three 128-term products added left to right, then the bias. -/
def pre1K (s d a : Fin 128 → EReal) (W1 : (⟨2, ![384, 50]⟩ : Shape).Idx → EReal)
    (b1 : (⟨1, ![50]⟩ : Shape).Idx → EReal) (n : Fin 50) : EReal :=
  ((∑ k : Fin 128, max (s k) 0 * W1 (ix2 ⟨k.val, by omega⟩ n))
      + (∑ k : Fin 128, max (d k) 0 * W1 (ix2 ⟨128 + k.val, by omega⟩ n))
      + (∑ k : Fin 128, a k * W1 (ix2 ⟨256 + k.val, by omega⟩ n)))
    + b1 (ix1 n)

/-- The 384 entries the first layer multiplies: the two rectified endpoint rows, then the edge's own row. -/
def cat (s d a : Fin 128 → EReal) (k : Fin 384) : EReal :=
  if h : k.val < 128 then max (s ⟨k.val, h⟩) 0
  else if h2 : k.val < 256 then max (d ⟨k.val - 128, by omega⟩) 0
  else a ⟨k.val - 256, by omega⟩

/-- First layer before its activation, as one 384-term product, then the bias. -/
def pre1R (s d a : Fin 128 → EReal) (W1 : (⟨2, ![384, 50]⟩ : Shape).Idx → EReal)
    (b1 : (⟨1, ![50]⟩ : Shape).Idx → EReal) (n : Fin 50) : EReal :=
  (∑ k : Fin 384, cat s d a k * W1 (ix2 k n)) + b1 (ix1 n)

/-- The two later layers, from the first layer's 50 pre-activations. -/
def tail (p1 : Fin 50 → EReal) (W2 : (⟨2, ![50, 25]⟩ : Shape).Idx → EReal) (b2 : (⟨1, ![25]⟩ : Shape).Idx → EReal)
    (W3 : (⟨2, ![25, 1]⟩ : Shape).Idx → EReal) (b3 : (⟨1, ![1]⟩ : Shape).Idx → EReal) : EReal :=
  (∑ q : Fin 25, max ((∑ n : Fin 50, max (p1 n) 0 * W2 (ix2 n q)) + b2 (ix1 q)) 0 * W3 (ix2 q 0)) + b3 (ix1 0)

/-- One edge's output with the first product in three pieces. -/
def mlpK (s d a : Fin 128 → EReal) (W1 : (⟨2, ![384, 50]⟩ : Shape).Idx → EReal) (b1 : (⟨1, ![50]⟩ : Shape).Idx → EReal)
    (W2 : (⟨2, ![50, 25]⟩ : Shape).Idx → EReal) (b2 : (⟨1, ![25]⟩ : Shape).Idx → EReal)
    (W3 : (⟨2, ![25, 1]⟩ : Shape).Idx → EReal) (b3 : (⟨1, ![1]⟩ : Shape).Idx → EReal) : EReal :=
  tail (pre1K s d a W1 b1) W2 b2 W3 b3

/-- One edge's output with the first product as one sum. -/
def mlpR (s d a : Fin 128 → EReal) (W1 : (⟨2, ![384, 50]⟩ : Shape).Idx → EReal) (b1 : (⟨1, ![50]⟩ : Shape).Idx → EReal)
    (W2 : (⟨2, ![50, 25]⟩ : Shape).Idx → EReal) (b2 : (⟨1, ![25]⟩ : Shape).Idx → EReal)
    (W3 : (⟨2, ![25, 1]⟩ : Shape).Idx → EReal) (b3 : (⟨1, ![1]⟩ : Shape).Idx → EReal) : EReal :=
  tail (pre1R s d a W1 b1) W2 b2 W3 b3

/-- A sum over 384 positions is the sum over the first 128, plus the next 128, plus the last 128, in any commutative
    monoid: the extended reals' addition has no corner that breaks regrouping. -/
theorem sum_384 {M : Type*} [AddCommMonoid M] (f : Fin 384 → M) :
    ∑ k : Fin 384, f k
      = (∑ k : Fin 128, f ⟨k.val, by omega⟩) + (∑ k : Fin 128, f ⟨128 + k.val, by omega⟩)
        + (∑ k : Fin 128, f ⟨256 + k.val, by omega⟩) := by
  have h1 := Fin.sum_univ_add (a := 256) (b := 128) (f := f)
  have h2 := Fin.sum_univ_add (a := 128) (b := 128) (f := fun i : Fin (128 + 128) => f (Fin.castAdd 128 i))
  rw [h1, h2]
  rfl

theorem pre1K_eq_pre1R (s d a : Fin 128 → EReal) (W1 : (⟨2, ![384, 50]⟩ : Shape).Idx → EReal)
    (b1 : (⟨1, ![50]⟩ : Shape).Idx → EReal) : pre1K s d a W1 b1 = pre1R s d a W1 b1 := by
  funext n
  have e1 : ∀ k : Fin 128, cat s d a ⟨k.val, by omega⟩ = max (s k) 0 := fun k => by
    have hk : (⟨k.val, by omega⟩ : Fin 384).val < 128 := k.isLt
    simp only [cat, dif_pos hk]
  have e2 : ∀ k : Fin 128, cat s d a ⟨128 + k.val, by omega⟩ = max (d k) 0 := fun k => by
    have hk1 : ¬ (⟨128 + k.val, by omega⟩ : Fin 384).val < 128 := by show ¬ (128 + k.val < 128); omega
    have hk2 : (⟨128 + k.val, by omega⟩ : Fin 384).val < 256 := by show 128 + k.val < 256; omega
    simp only [cat, dif_neg hk1, dif_pos hk2]
    congr 2
    apply Fin.ext; simp
  have e3 : ∀ k : Fin 128, cat s d a ⟨256 + k.val, by omega⟩ = a k := fun k => by
    have hk1 : ¬ (⟨256 + k.val, by omega⟩ : Fin 384).val < 128 := by show ¬ (256 + k.val < 128); omega
    have hk2 : ¬ (⟨256 + k.val, by omega⟩ : Fin 384).val < 256 := by show ¬ (256 + k.val < 256); omega
    simp only [cat, dif_neg hk1, dif_neg hk2]
    congr 1
    apply Fin.ext; simp
  unfold pre1K pre1R
  rw [sum_384]
  simp only [e1, e2, e3]

theorem mlpK_eq_mlpR (s d a : Fin 128 → EReal) (W1 : (⟨2, ![384, 50]⟩ : Shape).Idx → EReal) (b1 : (⟨1, ![50]⟩ : Shape).Idx → EReal)
    (W2 : (⟨2, ![50, 25]⟩ : Shape).Idx → EReal) (b2 : (⟨1, ![25]⟩ : Shape).Idx → EReal)
    (W3 : (⟨2, ![25, 1]⟩ : Shape).Idx → EReal) (b3 : (⟨1, ![1]⟩ : Shape).Idx → EReal) :
    mlpK s d a W1 b1 W2 b2 W3 b3 = mlpR s d a W1 b1 W2 b2 W3 b3 := by
  unfold mlpK mlpR
  rw [pre1K_eq_pre1R]

end Cert.Spec

end
-- ==== Proof.KerPayload.lean ====
/-
  The kernel body's one store read at one entry: entry `r` of the 5120-entry output block is the three-layer
  perceptron of row `r` of the three 5120 × 128 input blocks.
-/
import proofs.«410346_j49031346651535_4_alg».proof.Proof.Gen.KernelIdeal.Frame
import proofs.«410346_j49031346651535_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

namespace Payload

/-! ## A matrix product into the zero accumulator, entry by entry -/

section Plain
variable {m k n : Nat}

/-- The dimension numbers of a rows × contraction by contraction × columns product, whatever proof of
    well-formedness they carry. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable (w : DotDims.WF ⟨2, ![m, k]⟩ ⟨2, ![k, n]⟩ ⟨2, ![m, n]⟩ [1] [0] [0] [1] [] [])

/-- The left operand's row is the output's row. -/
theorem plain_lhs_0 (a : Fin m) (b : Fin n) (κ : (plainDims w).contr.Idx) :
    ((plainDims w).lhsIdx (ix2 a b) κ 0).val = a.val := by
  simp [DotDims.lhsIdx]; rfl

/-- The left operand's column is the contraction position. -/
theorem plain_lhs_1 (a : Fin m) (b : Fin n) (κ : (plainDims w).contr.Idx) :
    ((plainDims w).lhsIdx (ix2 a b) κ 1).val = (κ ⟨0, Nat.one_pos⟩).val :=
  (plainDims w).lhsIdx_val_of_single rfl (ix2 a b) κ

/-- The right operand's row is the contraction position. -/
theorem plain_rhs_0 (a : Fin m) (b : Fin n) (κ : (plainDims w).contr.Idx) :
    ((plainDims w).rhsIdx (ix2 a b) κ 0).val = (κ ⟨0, Nat.one_pos⟩).val :=
  (plainDims w).rhsIdx_val_of_single rfl (ix2 a b) κ

/-- The right operand's column is the output's column. -/
theorem plain_rhs_1 (a : Fin m) (b : Fin n) (κ : (plainDims w).contr.Idx) :
    ((plainDims w).rhsIdx (ix2 a b) κ 1).val = b.val := by
  simp [DotDims.rhsIdx]; rfl

/-- Such a product into the zero accumulator, read at `(a, b)`, is the sum over the contracted coordinate of the
    products of the entries: no accumulator term is left, since the accumulator's word encodes zero. -/
theorem matmul_plain_zero_apply {φ₁ φ₂ : FTy} (prec : Option ContractPrecision)
    (A : FVec Ideal ⟨2, ![m, k]⟩ φ₁) (B : FVec Ideal ⟨2, ![k, n]⟩ φ₂) (a : Fin m) (b : Fin n) :
    matmul (plainDims w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => exact plain_lhs_0 w a b _
    | ⟨1, _⟩ => exact (plain_lhs_1 w a b _).trans c2
  have r2 : (plainDims w).rhsIdx (ix2 a b) ((contrEquiv1 _ k rfl rfl).symm c) = ix2 c b := by
    funext ax; apply Fin.ext
    match ax with
    | ⟨0, _⟩ => exact (plain_rhs_0 w a b _).trans c2
    | ⟨1, _⟩ => exact plain_rhs_1 w a b _
  rw [l2, r2]

end Plain

/-- The body's 5120 × 128 by 128 × 50 product at `(p, q)`. -/
theorem mm1_apply {φ₁ φ₂ : FTy} (A : FVec Ideal S5120x128 φ₁) (B : FVec Ideal S128x50 φ₂) (p : Fin 5120) (q : Fin 50) :
    matmul dot_S5120x128_S128x50_S5120x50_1_0_0_1_n_n none A B (constant (F := Ideal) S5120x50 .f32 0x00000000#32) (ix2 p q)
      = ∑ c : Fin 128, A (ix2 p c) * B (ix2 c q) :=
  matmul_plain_zero_apply dot_S5120x128_S128x50_S5120x50_1_0_0_1_n_n.wf none A B p q

/-- The body's 5120 × 50 by 50 × 25 product at `(p, q)`. -/
theorem mm2_apply {φ₁ φ₂ : FTy} (A : FVec Ideal S5120x50 φ₁) (B : FVec Ideal S50x25 φ₂) (p : Fin 5120) (q : Fin 25) :
    matmul dot_S5120x50_S50x25_S5120x25_1_0_0_1_n_n none A B (constant (F := Ideal) S5120x25 .f32 0x00000000#32) (ix2 p q)
      = ∑ c : Fin 50, A (ix2 p c) * B (ix2 c q) :=
  matmul_plain_zero_apply dot_S5120x50_S50x25_S5120x25_1_0_0_1_n_n.wf none A B p q

/-- The body's 5120 × 25 by 25 × 1 product at `(p, q)`. -/
theorem mm3_apply {φ₁ φ₂ : FTy} (A : FVec Ideal S5120x25 φ₁) (B : FVec Ideal S25x1 φ₂) (p : Fin 5120) (q : Fin 1) :
    matmul dot_S5120x25_S25x1_S5120x1_1_0_0_1_n_n none A B (constant (F := Ideal) S5120x1 .f32 0x00000000#32) (ix2 p q)
      = ∑ c : Fin 25, A (ix2 p c) * B (ix2 c q) :=
  matmul_plain_zero_apply dot_S5120x25_S25x1_S5120x1_1_0_0_1_n_n.wf none A B p q

/-! ## The weight block's three row slices -/

/-- Rows 0 … 127 of the 384 × 50 block. -/
theorem slice0_apply (W : FVec Ideal S384x50 .bf16) (h : S384x50.Slices ![0, 0] S128x50) (c : Fin 128) (q : Fin 50) :
    extractStridedSlice S128x50 ![0, 0] W h (ix2 c q) = W (ix2 ⟨c.val, by omega⟩ q) :=
  slice2_axis0_apply 0 W h c q ⟨c.val, by omega⟩ (Nat.zero_add _).symm

/-- Rows 128 … 255. -/
theorem slice128_apply (W : FVec Ideal S384x50 .bf16) (h : S384x50.Slices ![128, 0] S128x50) (c : Fin 128) (q : Fin 50) :
    extractStridedSlice S128x50 ![128, 0] W h (ix2 c q) = W (ix2 ⟨128 + c.val, by omega⟩ q) :=
  slice2_axis0_apply 128 W h c q ⟨128 + c.val, by omega⟩ rfl

/-- Rows 256 … 383. -/
theorem slice256_apply (W : FVec Ideal S384x50 .bf16) (h : S384x50.Slices ![256, 0] S128x50) (c : Fin 128) (q : Fin 50) :
    extractStridedSlice S128x50 ![256, 0] W h (ix2 c q) = W (ix2 ⟨256 + c.val, by omega⟩ q) :=
  slice2_axis0_apply 256 W h c q ⟨256 + c.val, by omega⟩ rfl

/-! ## A bias vector laid along the rows -/

/-- An `[n]` vector cast to one row and repeated down `a` rows reads, at `(p, q)`, its entry `q`. -/
theorem bias_apply {a n : Nat} {α : Type} (v : (⟨1, ![n]⟩ : Shape).Idx → α) (h1 : (⟨1, ![n]⟩ : Shape).ShapeCasts ⟨2, ![1, n]⟩)
    (h2 : (⟨2, ![1, n]⟩ : Shape).Broadcasts ⟨2, ![a, n]⟩) (p : Fin a) (q : Fin n) :
    broadcastTo ⟨2, ![a, n]⟩ (shapeCast ⟨2, ![1, n]⟩ v h1) h2 (ix2 p q) = v (ix1 q) := by
  rw [broadcastTo_1b_ab_apply, shapeCast_a_1a_apply]

/-! ## The zero word -/

/-- The word `0x00000000` read as an extended real is zero. -/
theorem zero_word : (FloatOps.ofBits (F := Ideal) .f32 0x00000000#32) = (0 : EReal) := Ideal.ofBits_zero_f32

/-! ## The first two layers -/

/-- The value the first part of the body hands on, at `(p, q)`: the second layer's rectified output `q` for row `p`. -/
theorem k0_pay2_apply (v0 v3 v7 : Vec Ideal S5120x128 .f32) (v13 : Vec Ideal S384x50 .bf16) (v23 : Vec Ideal S50 .f32)
    (v29 : Vec Ideal S50x25 .f32) (v31 : Vec Ideal S25 .f32) (p : Fin 5120) (q : Fin 25) :
    k0_pay2 (F := Ideal) v0 v3 v7 v13 v23 v29 v31 (ix2 p q)
      = max ((∑ n : Fin 50, max (Cert.Spec.pre1K (fun k => v3 (ix2 p k)) (fun k => v7 (ix2 p k)) (fun k => v0 (ix2 p k)) v13 v23 n) 0
            * v29 (ix2 n q)) + v31 (ix1 q)) 0 := by
  unfold k0_pay2
  simp only [maximumf_apply, addf_apply, broadcast_apply, truncf_apply, mm1_apply, mm2_apply, bias_apply, shapeCast_self,
    slice0_apply, slice128_apply, slice256_apply, Scalar.ofBits, zero_word, Ideal.ofBits_zero_f32]
  rfl

/-! ## The last layer and the layout of the store -/

/-- The stored vector at entry `r`: the last layer's one output for row `r`. -/
theorem k0_pay1_apply (v36 : FVec Ideal S5120x25 .f32) (v37 : Vec Ideal S25x1 .f32) (v39 : Vec Ideal S1 .f32) (r : Fin 5120) :
    k0_pay1 (F := Ideal) v36 v37 v39 (ix1 r) = (∑ c : Fin 25, v36 (ix2 r c) * v37 (ix2 c 0)) + v39 (ix1 0) := by
  unfold k0_pay1
  simp only [shapeCast_1a_a_apply]
  rw [transpose_ix2_apply]
  simp only [addf_apply, mm3_apply, bias_apply]

/-- The all-zero offsets of a whole-block access, rank 1. -/
theorem hz1 : (![0] : Fin 1 → Nat) = fun _ => 0 := funext fun a => by fin_cases a; rfl
/-- The all-zero offsets of a whole-block access, rank 2. -/
theorem hz2 : (![0, 0] : Fin 2 → Nat) = fun _ => 0 := funext fun a => by fin_cases a <;> rfl

end Payload

open Payload

/-- Entry `r` of the output block: window 0 holds the edge rows, windows 1 and 2 the two endpoints' gathered rows. -/
theorem out0_9_apply (x0 x1 x2 : Vec Ideal S5120x128 .f32) (x3 : Vec Ideal S384x50 .bf16) (x4 : Vec Ideal S50 .f32)
    (x5 : Vec Ideal S50x25 .f32) (x6 : Vec Ideal S25 .f32) (x7 : Vec Ideal S25x1 .f32) (x8 : Vec Ideal S1 .f32) (r : Fin 5120) :
    out0_9 (F := Ideal) x0 x1 x2 x3 x4 x5 x6 x7 x8 (ix1 r)
      = Cert.Spec.mlpK (fun k => x1 (ix2 r k)) (fun k => x2 (ix2 r k)) (fun k => x0 (ix2 r k)) x3 x4 x5 x6 x7 x8 := by
  unfold out0_9
  rw [View.canon_unit_zero hz1]
  simp only [View.ld_unit_zero (S := S5120x128) hz2, View.ld_unit_zero (S := S384x50) hz2, View.ld_unit_zero (S := S50) hz1,
    View.ld_unit_zero (S := S50x25) hz2, View.ld_unit_zero (S := S25) hz1, View.ld_unit_zero (S := S25x1) hz2,
    View.ld_unit_zero (S := S1) hz1]
  rw [k0_pay1_apply]
  simp only [k0_pay2_apply]
  rfl

end Cert.KernelIdeal.Hand

end
-- ==== Proof.KerArray.lean ====
/-
  From the kernel region's run to the kernel program's result.

  The grid has 80 points; point `t` reads rows [5120 q, 5120 q + 5120) of the three padded 409600 × 128 arrays
  (q the point's block index, the same for the three inputs and the output) and the whole weight and bias arrays,
  and writes entries [5120 q, 5120 q + 5120) of the 409600-entry output. The 80 blocks tile the output, so after
  the region entry `j` of the output is the three-layer perceptron of row `j` of the three inputs. The two host
  operations after the region keep the first 400000 entries and view them as a column.
-/
import proofs.«410346_j49031346651535_4_alg».proof.Proof.Gen.KernelIdeal.Frame
import proofs.«410346_j49031346651535_4_alg».proof.Proof.Spec
import proofs.«410346_j49031346651535_4_alg».proof.Proof.KerPayload
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem idx1_lt {n : Nat} (j : (⟨1, ![n]⟩ : Shape).Idx) : (j 0).val < n := (j 0).isLt

/-- The output array as one function of the nine operand arrays: entry `j` is the perceptron of row `j`. -/
def outArr (A0 A1 A2 : S409600x128.Idx → EReal) (A3 : S384x50.Idx → EReal) (A4 : S50.Idx → EReal)
    (A5 : S50x25.Idx → EReal) (A6 : S25.Idx → EReal) (A7 : S25x1.Idx → EReal) (A8 : S1.Idx → EReal) :
    S409600.Idx → EReal :=
  fun j => Cert.Spec.mlpK (fun k => A1 (ix2 (⟨(j 0).val, idx1_lt j⟩ : Fin 409600) k))
    (fun k => A2 (ix2 (⟨(j 0).val, idx1_lt j⟩ : Fin 409600) k))
    (fun k => A0 (ix2 (⟨(j 0).val, idx1_lt j⟩ : Fin 409600) k)) A3 A4 A5 A6 A7 A8

/-- That function of the arrays as the region finds them. -/
def arrK (c : Dev nD) : S409600.Idx → EReal :=
  outArr (V m c main_v6) (V m c main_v7) (V m c main_v8) (V m c main_v9) (V m c main_arg4) (V m c main_arg5)
    (V m c main_arg6) (V m c main_arg7) (V m c main_arg8)

/-- The printed index maps over the 80 grid points: the three row-blocked inputs move with the output's block
    index, every other input stays at block 0, and the output's block index is below 80. -/
theorem idx_facts : ∀ t : Fin cfg0.N,
    win0_0.index t (0 : Fin 2) = win0_9.index t (0 : Fin 1) ∧ win0_0.index t (1 : Fin 2) = 0
    ∧ win0_1.index t (0 : Fin 2) = win0_9.index t (0 : Fin 1) ∧ win0_1.index t (1 : Fin 2) = 0
    ∧ win0_2.index t (0 : Fin 2) = win0_9.index t (0 : Fin 1) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 1) ≤ 79 :=
  (by decide +kernel : ∀ t : Fin grid0.N, _)

/-- Every one of the 80 output blocks is some point's. -/
theorem idx_onto : ∀ q : Fin 80, ∃ t : Fin cfg0.N, win0_9.index t (0 : Fin 1) = q.val :=
  (by decide +kernel : ∀ q : Fin 80, ∃ t : Fin grid0.N, win0_9.index t (0 : Fin 1) = q.val)

/-- Rows of a point's block stay inside the 409600 rows. -/
theorem row_lt (t : Fin cfg0.N) (r : Fin 5120) : win0_9.index t (0 : Fin 1) * 5120 + r.val < 409600 := by
  have h := (idx_facts t).2.2.2.2.2.2.2.2.2.2.2.2.2.2.2
  have hr := r.isLt
  omega

/-! ## The input blocks, read where the output's block says -/

/-- Row `r` of point `t`'s block of the padded edge rows is row `5120 q + r` of that array. -/
theorem blk0_read (c : Dev nD) (t : Fin cfg0.N) (r : Fin 5120) (k : Fin 128) :
    iblk m c 0 t (ix2 r k)
      = (V m c main_v6 : S409600x128.Idx → EReal) (ix2 ⟨win0_9.index t (0 : Fin 1) * 5120 + r.val, row_lt t r⟩ k) := by
  obtain ⟨e0, e1, -⟩ := idx_facts t
  have h : ((cfg0.win 0).blk t).view.emb (ix2 r k) = ix2 ⟨win0_9.index t (0 : Fin 1) * 5120 + r.val, row_lt t r⟩ k := by
    funext a; apply Fin.ext
    match a with
    | ⟨0, _⟩ => show win0_0.index t (0 : Fin 2) * 5120 + 1 * r.val = win0_9.index t (0 : Fin 1) * 5120 + r.val; omega
    | ⟨1, _⟩ => show win0_0.index t (1 : Fin 2) * 128 + 1 * k.val = k.val; omega
  show V m c main_v6 (((cfg0.win 0).blk t).view.emb (ix2 r k)) = _
  rw [h]

/-- The same for the padded source rows. -/
theorem blk1_read (c : Dev nD) (t : Fin cfg0.N) (r : Fin 5120) (k : Fin 128) :
    iblk m c 1 t (ix2 r k)
      = (V m c main_v7 : S409600x128.Idx → EReal) (ix2 ⟨win0_9.index t (0 : Fin 1) * 5120 + r.val, row_lt t r⟩ k) := by
  obtain ⟨-, -, e0, e1, -⟩ := idx_facts t
  have h : ((cfg0.win 1).blk t).view.emb (ix2 r k) = ix2 ⟨win0_9.index t (0 : Fin 1) * 5120 + r.val, row_lt t r⟩ k := by
    funext a; apply Fin.ext
    match a with
    | ⟨0, _⟩ => show win0_1.index t (0 : Fin 2) * 5120 + 1 * r.val = win0_9.index t (0 : Fin 1) * 5120 + r.val; omega
    | ⟨1, _⟩ => show win0_1.index t (1 : Fin 2) * 128 + 1 * k.val = k.val; omega
  show V m c main_v7 (((cfg0.win 1).blk t).view.emb (ix2 r k)) = _
  rw [h]

/-- The same for the padded destination rows. -/
theorem blk2_read (c : Dev nD) (t : Fin cfg0.N) (r : Fin 5120) (k : Fin 128) :
    iblk m c 2 t (ix2 r k)
      = (V m c main_v8 : S409600x128.Idx → EReal) (ix2 ⟨win0_9.index t (0 : Fin 1) * 5120 + r.val, row_lt t r⟩ k) := by
  obtain ⟨-, -, -, -, e0, e1, -⟩ := idx_facts t
  have h : ((cfg0.win 2).blk t).view.emb (ix2 r k) = ix2 ⟨win0_9.index t (0 : Fin 1) * 5120 + r.val, row_lt t r⟩ k := by
    funext a; apply Fin.ext
    match a with
    | ⟨0, _⟩ => show win0_2.index t (0 : Fin 2) * 5120 + 1 * r.val = win0_9.index t (0 : Fin 1) * 5120 + r.val; omega
    | ⟨1, _⟩ => show win0_2.index t (1 : Fin 2) * 128 + 1 * k.val = k.val; omega
  show V m c main_v8 (((cfg0.win 2).blk t).view.emb (ix2 r k)) = _
  rw [h]

/-- The weight and bias windows' one block is the whole array, at every point. -/
theorem blk3_read (c : Dev nD) (t : Fin cfg0.N) : iblk m c 3 t = (V m c main_v9 : S384x50.Idx → EReal) := by
  obtain ⟨-, -, -, -, -, -, e0, e1, -⟩ := idx_facts t
  funext y
  have h : ((cfg0.win 3).blk t).view.emb y = y := by
    funext a; apply Fin.ext
    match a with
    | ⟨0, _⟩ => show win0_3.index t (0 : Fin 2) * 384 + 1 * (y 0).val = (y 0).val; omega
    | ⟨1, _⟩ => show win0_3.index t (1 : Fin 2) * 50 + 1 * (y 1).val = (y 1).val; omega
  show V m c main_v9 (((cfg0.win 3).blk t).view.emb y) = _
  rw [h]

theorem blk4_read (c : Dev nD) (t : Fin cfg0.N) : iblk m c 4 t = (V m c main_arg4 : S50.Idx → EReal) := by
  obtain ⟨-, -, -, -, -, -, -, -, e0, -⟩ := idx_facts t
  funext y
  have h : ((cfg0.win 4).blk t).view.emb y = y := by
    funext a; apply Fin.ext
    match a with
    | ⟨0, _⟩ => show win0_4.index t (0 : Fin 1) * 50 + 1 * (y 0).val = (y 0).val; omega
  show V m c main_arg4 (((cfg0.win 4).blk t).view.emb y) = _
  rw [h]

theorem blk5_read (c : Dev nD) (t : Fin cfg0.N) : iblk m c 5 t = (V m c main_arg5 : S50x25.Idx → EReal) := by
  obtain ⟨-, -, -, -, -, -, -, -, -, e0, e1, -⟩ := idx_facts t
  funext y
  have h : ((cfg0.win 5).blk t).view.emb y = y := by
    funext a; apply Fin.ext
    match a with
    | ⟨0, _⟩ => show win0_5.index t (0 : Fin 2) * 50 + 1 * (y 0).val = (y 0).val; omega
    | ⟨1, _⟩ => show win0_5.index t (1 : Fin 2) * 25 + 1 * (y 1).val = (y 1).val; omega
  show V m c main_arg5 (((cfg0.win 5).blk t).view.emb y) = _
  rw [h]

theorem blk6_read (c : Dev nD) (t : Fin cfg0.N) : iblk m c 6 t = (V m c main_arg6 : S25.Idx → EReal) := by
  obtain ⟨-, -, -, -, -, -, -, -, -, -, -, e0, -⟩ := idx_facts t
  funext y
  have h : ((cfg0.win 6).blk t).view.emb y = y := by
    funext a; apply Fin.ext
    match a with
    | ⟨0, _⟩ => show win0_6.index t (0 : Fin 1) * 25 + 1 * (y 0).val = (y 0).val; omega
  show V m c main_arg6 (((cfg0.win 6).blk t).view.emb y) = _
  rw [h]

theorem blk7_read (c : Dev nD) (t : Fin cfg0.N) : iblk m c 7 t = (V m c main_arg7 : S25x1.Idx → EReal) := by
  obtain ⟨-, -, -, -, -, -, -, -, -, -, -, -, e0, e1, -⟩ := idx_facts t
  funext y
  have h : ((cfg0.win 7).blk t).view.emb y = y := by
    funext a; apply Fin.ext
    match a with
    | ⟨0, _⟩ => show win0_7.index t (0 : Fin 2) * 25 + 1 * (y 0).val = (y 0).val; omega
    | ⟨1, _⟩ => show win0_7.index t (1 : Fin 2) * 1 + 1 * (y 1).val = (y 1).val; omega
  show V m c main_arg7 (((cfg0.win 7).blk t).view.emb y) = _
  rw [h]

theorem blk8_read (c : Dev nD) (t : Fin cfg0.N) : iblk m c 8 t = (V m c main_arg8 : S1.Idx → EReal) := by
  obtain ⟨-, -, -, -, -, -, -, -, -, -, -, -, -, -, e0, -⟩ := idx_facts t
  funext y
  have h : ((cfg0.win 8).blk t).view.emb y = y := by
    funext a; apply Fin.ext
    match a with
    | ⟨0, _⟩ => show win0_8.index t (0 : Fin 1) * 1 + 1 * (y 0).val = (y 0).val; omega
  show V m c main_arg8 (((cfg0.win 8).blk t).view.emb y) = _
  rw [h]

/-! ## What a point writes back, and the whole output array -/

/-- Point `t` writes back block `t` of `arrK`: entry `r` of its block is the perceptron of row `5120 q + r`. -/
theorem flushed9_eq (c : Dev nD) (t : Fin cfg0.N) :
    (dats m 0 c).flushed 9 t = ((cfg0.win 9).blk t).view.read (Elt Ideal) (arrK m c) := by
  show (cfg0.win 9).cut (grid0.coords t) ((dats m 0 c).after 9 t) = _
  rw [after0_9]
  funext y
  obtain ⟨r, rfl⟩ : ∃ r : Fin 5120, y = ix1 r := ⟨y 0, eq_ix1 y⟩
  show out0_9 (iblk m c 0 t) (iblk m c 1 t) (iblk m c 2 t) (iblk m c 3 t) (iblk m c 4 t) (iblk m c 5 t) (iblk m c 6 t)
      (iblk m c 7 t) (iblk m c 8 t) (ix1 r) = arrK m c (((cfg0.win 9).blk t).view.emb (ix1 r))
  refine (out0_9_apply (iblk m c 0 t) (iblk m c 1 t) (iblk m c 2 t) (iblk m c 3 t) (iblk m c 4 t) (iblk m c 5 t)
    (iblk m c 6 t) (iblk m c 7 t) (iblk m c 8 t) r).trans ?_
  have hrow : (⟨((((cfg0.win 9).blk t).view.emb (ix1 r)) 0).val, idx1_lt _⟩ : Fin 409600)
      = ⟨win0_9.index t (0 : Fin 1) * 5120 + r.val, row_lt t r⟩ := by
    apply Fin.ext
    show win0_9.index t (0 : Fin 1) * 5120 + 1 * r.val = win0_9.index t (0 : Fin 1) * 5120 + r.val
    omega
  unfold arrK outArr
  simp only [blk0_read, blk1_read, blk2_read, blk3_read, blk4_read, blk5_read, blk6_read, blk7_read, blk8_read, hrow]

/-- An entry of the output is in point `t`'s block iff it lies in that block's 5120 entries. -/
theorem mem_blk9 (t : Fin cfg0.N) (i : S409600.Idx) :
    i ∈ ((cfg0.win 9).blk t).view.set ↔ ∀ a : Fin 1, win0_9.index t a * S5120.size a ≤ (i a).val ∧ (i a).val < win0_9.index t a * S5120.size a + S5120.size a := by
  show i ∈ ((View.whole main_v10).slice (win0_9.rect t)).set ↔ _
  rw [View.set_slice_whole, Rect.mem_set_unit]
  exact Iff.rfl

/-- Every entry of the output lies in some point's block: entry `i` in the block of index `i / 5120`. -/
theorem cover9 (i : S409600.Idx) : ∃ t : Fin cfg0.N, (cfg0.win 9).flush t = true ∧ i ∈ ((cfg0.win 9).blk t).view.set := by
  have hi : (i 0).val < 409600 := idx1_lt i
  obtain ⟨t, ht⟩ := idx_onto ⟨(i 0).val / 5120, by omega⟩
  have q : win0_9.index t (0 : Fin 1) = (i 0).val / 5120 := ht
  refine ⟨t, flush0_9 t, ?_⟩
  rw [mem_blk9]
  intro a
  match a with
  | ⟨0, _⟩ => show win0_9.index t (0 : Fin 1) * 5120 ≤ (i 0).val ∧ (i 0).val < win0_9.index t (0 : Fin 1) * 5120 + 5120; omega

/-- After the region the output array is `arrK`. -/
theorem final9 (c : Dev nD) : (dats m 0 c).arrAt 9 cfg0.N = arrK m c :=
  (dats m 0 c).arrAt_eq_of_cover 9 (arrK m c) (fun t _ => flushed9_eq m c t) cover9

/-! ## The host operations after the region, and the run -/

/-- The program's result: the first 400000 entries of the output array as a column. -/
def resK (c : Dev nD) : S400000x1.Idx → EReal :=
  shapeCast S400000x1 (extractStridedSlice S400000 ![0] (arrK m c) slices_S409600_S400000_0) shapeCasts_S400000_S400000x1

/-- The result buffer after the two operations that follow the region. -/
theorem tail_v12 (c : Dev nD) :
    Pipeline.afterTail₀ cfgs (dats m) 0 (V0 m) [hostOps1] c main_v12 = resK m c := by
  have hw : Pipeline.withArrays (cfgs 0).spec c (V0 m c) (fun w => (dats m 0 c).arrAt w (cfgs 0).N) (Proc.devRef .tc main_v10) = arrK m c :=
    (Pipeline.withArrays_arr spec0 launch0.win.arr_inj c _ _ 9).trans (final9 m c)
  unfold Pipeline.afterTail₀
  show StableHlo.after hostOps1 _ (Proc.devRef .tc main_v12) = _
  after_results
  rw [hw]
  rfl

/-- Every weakly fair execution of the kernel program terminates with the result buffer at `resK` and the nine
    argument arrays as launched. -/
theorem kernel_run : θ_run defs (onTc (τ := τ) (main (F := Ideal))) ⟨m, fun _ => 0, ρ⟩ (fun r => ∀ c : Dev nD,
      r.2.mem ((c.tc : Thread nD τ).loc main_v12) = resK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v12 (Pipeline.mem_restRefs_of main_v12 (by decide) (by decide))).trans (tail_v12 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c)))⟩)
    (run_main m ρ)

/-- Entry (e, 0) of the program's result is entry `e` of the output array. -/
theorem resK_apply (c : Dev nD) (e : Fin 400000) :
    resK m c (ix2 e (0 : Fin 1)) = arrK m c (ix1 (⟨e.val, by omega⟩ : Fin 409600)) := by
  unfold resK
  refine (shapeCast_apply _ _ (ix2 e (0 : Fin 1)) (ix1 e) ?_).trans ?_
  · rw [Shape.rowMajor_val_one, Shape.rowMajor_val_two]
    show e.val = e.val * 1 + 0
    omega
  · refine extractStridedSlice_apply _ _ _ (ix1 e) (ix1 (⟨e.val, by omega⟩ : Fin 409600)) ?_
    intro a
    match a with
    | ⟨0, _⟩ => show e.val = 0 + e.val; omega

end Cert.KernelIdeal.Hand

end
-- ==== Proof.RefTerm.lean ====
/-
  The reference program's result as one term of its argument arrays: the host operations of its entry point composed
  in program order (the gather with its index normalisation and range mask, the reshape to 256 columns, the rectifier,
  the concatenation with the edge rows, and the three affine layers with their rectifiers).
-/
import proofs.«410346_j49031346651535_4_alg».proof.Proof.Gen.ReferenceIdeal
import Idealize.ShloMosaic.PureOps.Ideal

noncomputable section

namespace Cert.ReferenceIdeal.Hand

open Idealize.ShloMosaic Cert.ReferenceIdeal Cert.ReferenceIdeal.Facts₀ Cert.ReferenceIdeal.Facts

variable {F : FTy → Type} [FloatOps F]

/-- The index words after jnp.take's normalisation (a negative word counts from the end), as a column per word. -/
def normR (i : IVec S400000x2 32) : IVec S400000x2x1 32 :=
  broadcastInDim S400000x2x1 ![0, 1] bcast_S400000x2_S400000x2x1_0_1
    (select (cmpi .slt i (broadcastInDim S400000x2 ![] bcast_S_S400000x2 (constantI S_ 32 0#32)))
      (addi i (broadcastInDim S400000x2 ![] bcast_S_S400000x2 (constantI S_ 32 50000#32))) i)

/-- The mask of words that name a row of the table. -/
def maskR (i : IVec S400000x2 32) : IVec S400000x2 1 :=
  Host.reduce IntOp.andi
    (andi (cmpi .sge (normR i) (broadcastInDim S400000x2x1 ![] bcast_S_S400000x2x1 (constantI S_ 32 0#32)))
      (cmpi .sle (normR i) (broadcastInDim S400000x2x1 ![0, 1, 2] bcast_S1x1x1_S400000x2x1_0_1_2
        (broadcastInDim S1x1x1 ![2] bcast_S1_S1x1x1_2 (constantI S1 32 49999#32)))))
    (constantI S_ 1 1#1) reducesTo_S400000x2x1_S400000x2_d2 h_S_

/-- jnp.take(x, i, axis=0) for a [400000, 2] array of words: the gathered rows, the fill value where the word is out of range. -/
def takeR (x : FVec F S50000x128 .f32) (i : IVec S400000x2 32) : FVec F S400000x2x128 .f32 :=
  select (broadcastInDim S400000x2x128 ![0, 1] bcast_S400000x2_S400000x2x128_0_1 (maskR i))
    (Host.gather gather_S50000x128_S400000x2x1_S400000x2x128_2_0_n_n_0_2_1128 x (normR i))
    (broadcastInDim S400000x2x128 ![] bcast_S_S400000x2x128 (constant S_ .f32 0x7FC00000#32))

/-- The 384 columns the first layer multiplies. -/
def featR (x : FVec F S50000x128 .f32) (ea : FVec F S400000x128 .f32) (idx : IVec S2x400000 32) : FVec F S400000x384 .f32 :=
  concatenate S400000x384 1
    [⟨S400000x256, maximumf (shapeCast S400000x256 (takeR x (transpose S400000x2 [1, 0] idx transposes_S2x400000_S400000x2_1_0)) shapeCasts_S400000x2x128_S400000x256)
        (broadcastInDim S400000x256 ![] bcast_S_S400000x256 (constant S_ .f32 0x00000000#32))⟩,
     ⟨S400000x128, ea⟩] concatenates_S400000x256_S400000x128_S400000x384_d1

/-- First layer after its rectifier. -/
def h1R (x : FVec F S50000x128 .f32) (ea : FVec F S400000x128 .f32) (idx : IVec S2x400000 32)
    (W1 : FVec F S384x50 .f32) (b1 : FVec F S50 .f32) : FVec F S400000x50 .f32 :=
  maximumf
    (addf (Host.dotGeneral dot_S400000x384_S384x50_S400000x50_1_0_0_1_n_n none (featR x ea idx) W1)
      (broadcastInDim S400000x50 ![0, 1] bcast_S1x50_S400000x50_0_1 (broadcastInDim S1x50 ![1] bcast_S50_S1x50_1 b1)))
    (broadcastInDim S400000x50 ![] bcast_S_S400000x50 (constant S_ .f32 0x00000000#32))

/-- Second layer after its rectifier. -/
def h2R (h1 : FVec F S400000x50 .f32) (W2 : FVec F S50x25 .f32) (b2 : FVec F S25 .f32) : FVec F S400000x25 .f32 :=
  maximumf
    (addf (Host.dotGeneral dot_S400000x50_S50x25_S400000x25_1_0_0_1_n_n none h1 W2)
      (broadcastInDim S400000x25 ![0, 1] bcast_S1x25_S400000x25_0_1 (broadcastInDim S1x25 ![1] bcast_S25_S1x25_1 b2)))
    (broadcastInDim S400000x25 ![] bcast_S_S400000x25 (constant S_ .f32 0x00000000#32))

/-- The reference's result of its nine argument arrays. -/
def refOut (x : FVec F S50000x128 .f32) (ea : FVec F S400000x128 .f32) (idx : IVec S2x400000 32)
    (W1 : FVec F S384x50 .f32) (b1 : FVec F S50 .f32) (W2 : FVec F S50x25 .f32) (b2 : FVec F S25 .f32)
    (W3 : FVec F S25x1 .f32) (b3 : FVec F S1 .f32) : FVec F S400000x1 .f32 :=
  addf (Host.dotGeneral dot_S400000x25_S25x1_S400000x1_1_0_0_1_n_n none (h2R (h1R x ea idx W1 b1) W2 b2) W3)
    (broadcastInDim S400000x1 ![0, 1] bcast_S1x1_S400000x1_0_1 (broadcastInDim S1x1 ![1] bcast_S1_S1x1_1 b3))

end Cert.ReferenceIdeal.Hand

end
-- ==== Proof.RefRun.lean ====
/-
  The reference program's run: its entry point is a straight line of host operations (the outlined functions'
  operations in place of their calls), so every weakly fair execution terminates with the result buffer holding
  the composed term of the argument arrays and the arguments untouched.
-/
import proofs.«410346_j49031346651535_4_alg».proof.Proof.Gen.ReferenceIdeal
import proofs.«410346_j49031346651535_4_alg».proof.Proof.RefTerm
import Idealize.ShloMosaic.Lib.StableHlo.Run
import Idealize.ShloMosaic.Adequacy
import Idealize.ShloMosaic.Init

noncomputable section

namespace Cert.ReferenceIdeal.Hand

open Idealize.ShloMosaic Idealize.ShloMosaic.TcCoe Idealize.SL.Sem Cert.ReferenceIdeal

variable {F : FTy → Type} [FloatOps F]
variable (m : (ℓ : Loc nD τ sig) → Buf (Elt F) ℓ) (ρ : Dev nD → PrngReg)

open Idealize.ShloMosaic.StableHlo Cert.ReferenceIdeal.Facts₀ Cert.ReferenceIdeal.Facts

/-- The index words transposed and normalised: the transposition, and of the first call's callee the comparison with zero, the sum with the table's length and (the nested call's) select between them, as a column per word. -/
abbrev opsNorm : List (HloOp τ sig (Elt F)) :=
  [ unary main_arg2 main_v0 ((transpose S400000x2 [1, 0] · transposes_S2x400000_S400000x2_1_0) : (⟨S2x400000, .i32⟩ : BufTy).Contents (Elt F) → (⟨S400000x2, .i32⟩ : BufTy).Contents (Elt F)),
        TRef.nullary main_call0.c (constantI S_ 32 0#32),
        TRef.unary main_call0.c main_call0.v0 (broadcastInDim S400000x2 ![] bcast_S_S400000x2),
        TRef.binary (.of main_v0 : TRef sig ⟨S400000x2, .i32⟩) main_call0.v0 main_call0.v1 (cmpi .slt),
        TRef.nullary main_call0.c_0 (constantI S_ 32 50000#32),
        TRef.unary main_call0.c_0 main_call0.v2 (broadcastInDim S400000x2 ![] bcast_S_S400000x2),
        TRef.binary (.of main_v0 : TRef sig ⟨S400000x2, .i32⟩) main_call0.v2 main_call0.v3 addi,
        TRef.ternary main_call0.v1 main_call0.v3 (.of main_v0 : TRef sig ⟨S400000x2, .i32⟩) main_call0.call0.v0 select,
        TRef.unary main_call0.call0.v0 main_call0.v5 (broadcastInDim S400000x2x1 ![0, 1] bcast_S400000x2_S400000x2x1_0_1) ]

/-- The range mask of the first call's callee: the normalised words compared with zero and with the last row, conjoined and reduced along the unit axis. -/
abbrev opsMask : List (HloOp τ sig (Elt F)) :=
  [     TRef.nullary main_call0.c_1 (constantI S1 32 49999#32),
        TRef.nullary main_call0.c_2 (constantI S_ 32 0#32),
        TRef.unary main_call0.c_2 main_call0.v6 (broadcastInDim S400000x2x1 ![] bcast_S_S400000x2x1),
        TRef.binary main_call0.v5 main_call0.v6 main_call0.v7 (cmpi .sge),
        TRef.unary main_call0.c_1 main_call0.v8 (broadcastInDim S1x1x1 ![2] bcast_S1_S1x1x1_2),
        TRef.unary main_call0.v8 main_call0.v9 (broadcastInDim S400000x2x1 ![0, 1, 2] bcast_S1x1x1_S400000x2x1_0_1_2),
        TRef.binary main_call0.v5 main_call0.v9 main_call0.v10 (cmpi .sle),
        TRef.binary main_call0.v7 main_call0.v10 main_call0.v11 andi,
        TRef.nullary main_call0.c_3 (constantI S_ 1 1#1),
        TRef.binary main_call0.v11 main_call0.c_3 main_call0.v12 (fun x v => Host.reduce IntOp.andi x v reducesTo_S400000x2x1_S400000x2_d2 h_S_) ]

/-- The gather of the first call's callee and its masked fill. -/
abbrev opsFill : List (HloOp τ sig (Elt F)) :=
  [     TRef.binary (.of main_arg0 : TRef sig ⟨S50000x128, .f32⟩) main_call0.v5 main_call0.v13 (fun x i => Host.gather gather_S50000x128_S400000x2x1_S400000x2x128_2_0_n_n_0_2_1128 x i),
        TRef.unary main_call0.v12 main_call0.v14 (broadcastInDim S400000x2x128 ![0, 1] bcast_S400000x2_S400000x2x128_0_1),
        TRef.nullary main_call0.cst (constant S_ .f32 0x7FC00000#32),
        TRef.unary main_call0.cst main_call0.v15 (broadcastInDim S400000x2x128 ![] bcast_S_S400000x2x128),
        TRef.ternary main_call0.v14 main_call0.v13 main_call0.v15 main_call0.v16 select ]

/-- The reshape to 256 columns and the first rectifier: a zero constant, its broadcast and the maximum. -/
abbrev opsRect : List (HloOp τ sig (Elt F)) :=
  [     reshape main_v1 main_v2 rfl shapeCasts_S400000x2x128_S400000x256,
        TRef.nullary main_call1.cst (constant S_ .f32 0x00000000#32),
        TRef.unary main_call1.cst main_call1.v0 (broadcastInDim S400000x256 ![] bcast_S_S400000x256),
        TRef.binary (.of main_v2 : TRef sig ⟨S400000x256, .f32⟩) main_call1.v0 main_call1.v1 maximumf ]

/-- The concatenation with the edge rows and the first affine layer with its rectifier. -/
abbrev opsL1 : List (HloOp τ sig (Elt F)) :=
  [ binary main_v3 main_arg1 main_v4 ((fun a b => concatenate S400000x384 1 [⟨S400000x256, a⟩, ⟨S400000x128, b⟩] concatenates_S400000x256_S400000x128_S400000x384_d1) : (⟨S400000x256, .f32⟩ : BufTy).Contents (Elt F) → (⟨S400000x128, .f32⟩ : BufTy).Contents (Elt F) → (⟨S400000x384, .f32⟩ : BufTy).Contents (Elt F)),
        binary main_v4 main_arg3 main_v5 ((fun l r => Host.dotGeneral dot_S400000x384_S384x50_S400000x50_1_0_0_1_n_n none l r) : (⟨S400000x384, .f32⟩ : BufTy).Contents (Elt F) → (⟨S384x50, .f32⟩ : BufTy).Contents (Elt F) → (⟨S400000x50, .f32⟩ : BufTy).Contents (Elt F)),
        unary main_arg4 main_v6 (broadcastInDim S1x50 ![1] bcast_S50_S1x50_1 : (⟨S50, .f32⟩ : BufTy).Contents (Elt F) → (⟨S1x50, .f32⟩ : BufTy).Contents (Elt F)),
        unary main_v6 main_v7 (broadcastInDim S400000x50 ![0, 1] bcast_S1x50_S400000x50_0_1 : (⟨S1x50, .f32⟩ : BufTy).Contents (Elt F) → (⟨S400000x50, .f32⟩ : BufTy).Contents (Elt F)),
        binary main_v5 main_v7 main_v8 (addf : (⟨S400000x50, .f32⟩ : BufTy).Contents (Elt F) → (⟨S400000x50, .f32⟩ : BufTy).Contents (Elt F) → (⟨S400000x50, .f32⟩ : BufTy).Contents (Elt F)),
        TRef.nullary main_call2.cst (constant S_ .f32 0x00000000#32),
        TRef.unary main_call2.cst main_call2.v0 (broadcastInDim S400000x50 ![] bcast_S_S400000x50),
        TRef.binary (.of main_v8 : TRef sig ⟨S400000x50, .f32⟩) main_call2.v0 main_call2.v1 maximumf ]

/-- The second affine layer with its rectifier. -/
abbrev opsL2 : List (HloOp τ sig (Elt F)) :=
  [     binary main_v9 main_arg5 main_v10 ((fun l r => Host.dotGeneral dot_S400000x50_S50x25_S400000x25_1_0_0_1_n_n none l r) : (⟨S400000x50, .f32⟩ : BufTy).Contents (Elt F) → (⟨S50x25, .f32⟩ : BufTy).Contents (Elt F) → (⟨S400000x25, .f32⟩ : BufTy).Contents (Elt F)),
        unary main_arg6 main_v11 (broadcastInDim S1x25 ![1] bcast_S25_S1x25_1 : (⟨S25, .f32⟩ : BufTy).Contents (Elt F) → (⟨S1x25, .f32⟩ : BufTy).Contents (Elt F)),
        unary main_v11 main_v12 (broadcastInDim S400000x25 ![0, 1] bcast_S1x25_S400000x25_0_1 : (⟨S1x25, .f32⟩ : BufTy).Contents (Elt F) → (⟨S400000x25, .f32⟩ : BufTy).Contents (Elt F)),
        binary main_v10 main_v12 main_v13 (addf : (⟨S400000x25, .f32⟩ : BufTy).Contents (Elt F) → (⟨S400000x25, .f32⟩ : BufTy).Contents (Elt F) → (⟨S400000x25, .f32⟩ : BufTy).Contents (Elt F)),
        TRef.nullary main_call3.cst (constant S_ .f32 0x00000000#32),
        TRef.unary main_call3.cst main_call3.v0 (broadcastInDim S400000x25 ![] bcast_S_S400000x25),
        TRef.binary (.of main_v13 : TRef sig ⟨S400000x25, .f32⟩) main_call3.v0 main_call3.v1 maximumf ]

/-- The third affine layer. -/
abbrev opsL3 : List (HloOp τ sig (Elt F)) :=
  [     binary main_v14 main_arg7 main_v15 ((fun l r => Host.dotGeneral dot_S400000x25_S25x1_S400000x1_1_0_0_1_n_n none l r) : (⟨S400000x25, .f32⟩ : BufTy).Contents (Elt F) → (⟨S25x1, .f32⟩ : BufTy).Contents (Elt F) → (⟨S400000x1, .f32⟩ : BufTy).Contents (Elt F)),
        unary main_arg8 main_v16 (broadcastInDim S1x1 ![1] bcast_S1_S1x1_1 : (⟨S1, .f32⟩ : BufTy).Contents (Elt F) → (⟨S1x1, .f32⟩ : BufTy).Contents (Elt F)),
        unary main_v16 main_v17 (broadcastInDim S400000x1 ![0, 1] bcast_S1x1_S400000x1_0_1 : (⟨S1x1, .f32⟩ : BufTy).Contents (Elt F) → (⟨S400000x1, .f32⟩ : BufTy).Contents (Elt F)),
        binary main_v15 main_v17 main_v18 (addf : (⟨S400000x1, .f32⟩ : BufTy).Contents (Elt F) → (⟨S400000x1, .f32⟩ : BufTy).Contents (Elt F) → (⟨S400000x1, .f32⟩ : BufTy).Contents (Elt F)) ]

/-- The entry point's 47 operations in program order: its own fifteen, and in place of each call the callee's
    operations over that call's buffers. -/
abbrev ops : List (HloOp τ sig (Elt F)) :=
  opsNorm ++ (opsMask ++ (opsFill ++ (opsRect ++ (opsL1 ++ (opsL2 ++ opsL3)))))

-- forty-seven binds re-associated: the rewrite under the chain recurses once per statement
set_option maxRecDepth 1024 in
/-- The entry point is that straight line: the functions' bodies unfolded at their calls, both sides are one chain
    of steps once sequencing is re-associated. -/
theorem main_eq (c : Dev nD) : main (F := F) c = seq ops := by
  simp only [main, fn_take.body, fn_where.body, fn_relu.body, fn_relu_0.body, fn_relu_1.body, ops, opsNorm, opsMask, opsFill,
    opsRect, opsL1, opsL2, opsL3, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only -/

theorem opsNorm_sub : (opsNorm : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub ..⟩
theorem opsMask_sub : (opsMask : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩
theorem opsFill_sub : (opsFill : List (HloOp τ sig (Elt F))).Forall fun op => op.bufs ⊆ tcRefs τ sig :=
  ⟨binary_bufs_sub .., unary_bufs_sub .., nullary_bufs_sub .., unary_bufs_sub .., ternary_bufs_sub ..⟩
theorem opsRect_sub : (opsRect : List (HloOp τ sig (Elt F))).Forall fun op => op.bufs ⊆ tcRefs τ sig :=
  ⟨reshape_bufs_sub .., nullary_bufs_sub .., unary_bufs_sub .., binary_bufs_sub ..⟩
theorem opsL1_sub : (opsL1 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub ..⟩
theorem opsL2_sub : (opsL2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩
theorem opsL3_sub : (opsL3 : List (HloOp τ sig (Elt F))).Forall fun op => op.bufs ⊆ tcRefs τ sig :=
  ⟨binary_bufs_sub .., unary_bufs_sub .., unary_bufs_sub .., binary_bufs_sub ..⟩
theorem ops_sub : (ops : List (HloOp τ sig (Elt F))).Forall fun op => op.bufs ⊆ tcRefs τ sig :=
  List.forall_append.2 ⟨opsNorm_sub, List.forall_append.2 ⟨opsMask_sub, List.forall_append.2 ⟨opsFill_sub,
    List.forall_append.2 ⟨opsRect_sub, List.forall_append.2 ⟨opsL1_sub, List.forall_append.2 ⟨opsL2_sub, opsL3_sub⟩⟩⟩⟩⟩⟩

/-! ## What each stretch writes, and that it leaves the rest -/

abbrev opsNorm_W : List (Ref sig .tc) := [main_v0, main_call0_c, main_call0_v0, main_call0_v1, main_call0_c_0, main_call0_v2, main_call0_v3, main_call0_v4, main_call0_v5]
theorem opsNorm_writes : (opsNorm : List (HloOp τ sig (Elt F))).Forall fun op => op.writes ⊆ (opsNorm_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev opsMask_W : List (Ref sig .tc) := [main_call0_c_1, main_call0_c_2, main_call0_v6, main_call0_v7, main_call0_v8, main_call0_v9, main_call0_v10, main_call0_v11, main_call0_c_3, main_call0_v12]
theorem opsMask_writes : (opsMask : List (HloOp τ sig (Elt F))).Forall fun op => op.writes ⊆ (opsMask_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev opsFill_W : List (Ref sig .tc) := [main_call0_v13, main_call0_v14, main_call0_cst, main_call0_v15, main_v1]
theorem opsFill_writes : (opsFill : List (HloOp τ sig (Elt F))).Forall fun op => op.writes ⊆ (opsFill_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev opsRect_W : List (Ref sig .tc) := [main_v2, main_call1_cst, main_call1_v0, main_v3]
theorem opsRect_writes : (opsRect : List (HloOp τ sig (Elt F))).Forall fun op => op.writes ⊆ (opsRect_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev opsL1_W : List (Ref sig .tc) := [main_v4, main_v5, main_v6, main_v7, main_v8, main_call2_cst, main_call2_v0, main_v9]
theorem opsL1_writes : (opsL1 : List (HloOp τ sig (Elt F))).Forall fun op => op.writes ⊆ (opsL1_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev opsL2_W : List (Ref sig .tc) := [main_v10, main_v11, main_v12, main_v13, main_call3_cst, main_call3_v0, main_v14]
theorem opsL2_writes : (opsL2 : List (HloOp τ sig (Elt F))).Forall fun op => op.writes ⊆ (opsL2_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)
abbrev opsL3_W : List (Ref sig .tc) := [main_v15, main_v16, main_v17, main_v18]
theorem opsL3_writes : (opsL3 : List (HloOp τ sig (Elt F))).Forall fun op => op.writes ⊆ (opsL3_W.map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- Two lines' fold is the second's over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- A buffer outside a list holding every buffer a line writes keeps its contents through the line. -/
theorem after_keep {ws : List (Ref sig .tc)} (l : List (HloOp τ sig (Elt F)))
    (hl : l.Forall fun op => op.writes ⊆ (ws.map (Proc.devRef (τ := τ) .tc)).toFinset) (V : Valuation τ sig (Elt F))
    {r : Ref sig .tc} (hr : r ∉ ws) : after l V (no_index (Proc.devRef .tc r)) = V (Proc.devRef .tc r) :=
  after_of_writes_sub l V hl hr

/-! ## The stretches' values -/

/-- The range mask of normalised words. -/
def maskOf (n : IVec S400000x2x1 32) : IVec S400000x2 1 :=
  Host.reduce IntOp.andi
    (andi (cmpi .sge n (broadcastInDim S400000x2x1 ![] bcast_S_S400000x2x1 (constantI S_ 32 0#32)))
      (cmpi .sle n (broadcastInDim S400000x2x1 ![0, 1, 2] bcast_S1x1x1_S400000x2x1_0_1_2
        (broadcastInDim S1x1x1 ![2] bcast_S1_S1x1x1_2 (constantI S1 32 49999#32)))))
    (constantI S_ 1 1#1) reducesTo_S400000x2x1_S400000x2_d2 h_S_

/-- The gathered rows, the fill value where the mask is off. -/
def fillOf (x : FVec F S50000x128 .f32) (n : IVec S400000x2x1 32) (k : IVec S400000x2 1) : FVec F S400000x2x128 .f32 :=
  select (broadcastInDim S400000x2x128 ![0, 1] bcast_S400000x2_S400000x2x128_0_1 k)
    (Host.gather gather_S50000x128_S400000x2x1_S400000x2x128_2_0_n_n_0_2_1128 x n)
    (broadcastInDim S400000x2x128 ![] bcast_S_S400000x2x128 (constant S_ .f32 0x7FC00000#32))

/-- The rows reshaped to 256 columns and rectified. -/
def rectOf (t : FVec F S400000x2x128 .f32) : FVec F S400000x256 .f32 :=
  maximumf (shapeCast S400000x256 t shapeCasts_S400000x2x128_S400000x256)
    (broadcastInDim S400000x256 ![] bcast_S_S400000x256 (constant S_ .f32 0x00000000#32))

/-- The first layer after its rectifier, of the rectified rows. -/
def h1Of (r : FVec F S400000x256 .f32) (ea : FVec F S400000x128 .f32) (W1 : FVec F S384x50 .f32) (b1 : FVec F S50 .f32) :
    FVec F S400000x50 .f32 :=
  maximumf
    (addf (Host.dotGeneral dot_S400000x384_S384x50_S400000x50_1_0_0_1_n_n none
        (concatenate S400000x384 1 [⟨S400000x256, r⟩, ⟨S400000x128, ea⟩] concatenates_S400000x256_S400000x128_S400000x384_d1) W1)
      (broadcastInDim S400000x50 ![0, 1] bcast_S1x50_S400000x50_0_1 (broadcastInDim S1x50 ![1] bcast_S50_S1x50_1 b1)))
    (broadcastInDim S400000x50 ![] bcast_S_S400000x50 (constant S_ .f32 0x00000000#32))

/-- The third layer. -/
def outOf (h2 : FVec F S400000x25 .f32) (W3 : FVec F S25x1 .f32) (b3 : FVec F S1 .f32) : FVec F S400000x1 .f32 :=
  addf (Host.dotGeneral dot_S400000x25_S25x1_S400000x1_1_0_0_1_n_n none h2 W3)
    (broadcastInDim S400000x1 ![0, 1] bcast_S1x1_S400000x1_0_1 (broadcastInDim S1x1 ![1] bcast_S1_S1x1_1 b3))

/-- The reference's result is the stretches' values composed. -/
theorem refOut_eq (x : FVec F S50000x128 .f32) (ea : FVec F S400000x128 .f32) (idx : IVec S2x400000 32)
    (W1 : FVec F S384x50 .f32) (b1 : FVec F S50 .f32) (W2 : FVec F S50x25 .f32) (b2 : FVec F S25 .f32)
    (W3 : FVec F S25x1 .f32) (b3 : FVec F S1 .f32) :
    refOut x ea idx W1 b1 W2 b2 W3 b3
      = outOf (h2R (h1Of (rectOf (fillOf x (normR (transpose S400000x2 [1, 0] idx transposes_S2x400000_S400000x2_1_0))
          (maskOf (normR (transpose S400000x2 [1, 0] idx transposes_S2x400000_S400000x2_1_0))))) ea W1 b1) W2 b2) W3 b3 := by
  unfold refOut outOf h1R h1Of featR rectOf takeR fillOf maskR maskOf
  rfl

theorem norm_eq (W : Valuation τ sig (Elt F)) :
    after opsNorm W (no_index (main_call0_v5 : DevRef τ sig))
      = normR (transpose S400000x2 [1, 0] (W (main_arg2 : DevRef τ sig)) transposes_S2x400000_S400000x2_1_0) := by
  after_results_simp
  simp only [TRef.toBuf, TRef.ofBuf, cast_eq]
  generalize W (main_arg2 : DevRef τ sig) = T
  unfold normR
  rfl

attribute [local irreducible] Host.reduce in
theorem mask_eq (W : Valuation τ sig (Elt F)) :
    after opsMask W (no_index (main_call0_v12 : DevRef τ sig)) = maskOf (W (main_call0_v5 : DevRef τ sig)) := by
  after_results_simp
  simp only [TRef.toBuf, TRef.ofBuf, cast_eq]
  generalize W (main_call0_v5 : DevRef τ sig) = T
  unfold maskOf
  rfl

attribute [local irreducible] Host.gather in
theorem fill_eq (W : Valuation τ sig (Elt F)) :
    after opsFill W (no_index (main_v1 : DevRef τ sig))
      = fillOf (W (main_arg0 : DevRef τ sig)) (W (main_call0_v5 : DevRef τ sig)) (W (main_call0_v12 : DevRef τ sig)) := by
  after_results_simp
  simp only [TRef.toBuf, TRef.ofBuf, cast_eq]
  generalize W (main_arg0 : DevRef τ sig) = X
  generalize W (main_call0_v5 : DevRef τ sig) = N
  generalize W (main_call0_v12 : DevRef τ sig) = K
  unfold fillOf
  rfl

theorem rect_eq (W : Valuation τ sig (Elt F)) :
    after opsRect W (no_index (main_v3 : DevRef τ sig)) = rectOf (W (main_v1 : DevRef τ sig)) := by
  after_results_simp
  simp only [TRef.toBuf, TRef.ofBuf, cast_eq]
  generalize W (main_v1 : DevRef τ sig) = T
  unfold rectOf
  rfl

theorem l1_eq (W : Valuation τ sig (Elt F)) :
    after opsL1 W (no_index (main_v9 : DevRef τ sig))
      = h1Of (W (main_v3 : DevRef τ sig)) (W (main_arg1 : DevRef τ sig)) (W (main_arg3 : DevRef τ sig)) (W (main_arg4 : DevRef τ sig)) := by
  after_results_simp
  simp only [TRef.toBuf, TRef.ofBuf, cast_eq]
  generalize W (main_v3 : DevRef τ sig) = R
  generalize W (main_arg1 : DevRef τ sig) = A
  generalize W (main_arg3 : DevRef τ sig) = M
  generalize W (main_arg4 : DevRef τ sig) = B
  unfold h1Of
  rfl

theorem l2_eq (W : Valuation τ sig (Elt F)) :
    after opsL2 W (no_index (main_v14 : DevRef τ sig))
      = h2R (W (main_v9 : DevRef τ sig)) (W (main_arg5 : DevRef τ sig)) (W (main_arg6 : DevRef τ sig)) := by
  after_results_simp
  simp only [TRef.toBuf, TRef.ofBuf, cast_eq]
  generalize W (main_v9 : DevRef τ sig) = R
  generalize W (main_arg5 : DevRef τ sig) = M
  generalize W (main_arg6 : DevRef τ sig) = B
  unfold h2R
  rfl

theorem l3_eq (W : Valuation τ sig (Elt F)) :
    after opsL3 W (no_index (main_v18 : DevRef τ sig))
      = outOf (W (main_v14 : DevRef τ sig)) (W (main_arg7 : DevRef τ sig)) (W (main_arg8 : DevRef τ sig)) := by
  after_results_simp
  generalize W (main_v14 : DevRef τ sig) = R
  generalize W (main_arg7 : DevRef τ sig) = M
  generalize W (main_arg8 : DevRef τ sig) = B
  unfold outOf
  rfl

/-! ## The run -/

/-- The fold at the result buffer is the composed term: stretch by stretch, each stretch's value over what the
    stretches before it left. -/
theorem out_eq (V : Valuation τ sig (Elt F)) :
    after ops V (main_v18 : DevRef τ sig)
      = refOut (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  rw [refOut_eq]
  simp (disch := decide) only [ops, after_append', l3_eq, l2_eq, l1_eq, rect_eq, fill_eq, mask_eq, norm_eq,
    after_keep (F := F) opsNorm opsNorm_writes, after_keep (F := F) opsMask opsMask_writes, after_keep (F := F) opsFill opsFill_writes, after_keep (F := F) opsRect opsRect_writes, after_keep (F := F) opsL1 opsL1_writes, after_keep (F := F) opsL2 opsL2_writes, after_keep (F := F) opsL3 opsL3_writes]

/-- No operation writes an argument buffer. -/
theorem arg_eq (V : Valuation τ sig (Elt F)) {r : Ref sig .tc}
    (hr : r ∈ [main_arg0, main_arg1, main_arg2, main_arg3, main_arg4, main_arg5, main_arg6, main_arg7, main_arg8]) :
    after ops V (Proc.devRef .tc r) = V (Proc.devRef .tc r) := by
  simp only [List.mem_cons, List.not_mem_nil, or_false] at hr
  rcases hr with rfl | rfl | rfl | rfl | rfl | rfl | rfl | rfl | rfl <;>
    simp (disch := decide) only [ops, after_append', after_keep (F := F) opsNorm opsNorm_writes, after_keep (F := F) opsMask opsMask_writes, after_keep (F := F) opsFill opsFill_writes, after_keep (F := F) opsRect opsRect_writes, after_keep (F := F) opsL1 opsL1_writes, after_keep (F := F) opsL2 opsL2_writes, after_keep (F := F) opsL3 opsL3_writes]

/-- Every weakly fair execution of the reference terminates with the result at `refOut` of the arguments, which end unchanged. -/
theorem run : θ_run (defs (F := F)) (onTc (τ := τ) (main (F := F))) ⟨m, fun _ => 0, ρ⟩ (fun r => ∀ c : Dev nD,
      r.2.mem ((c.tc : Thread nD τ).loc main_v18)
        = refOut (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v18).trans (out_eq _),
      (h c main_arg0).trans (arg_eq _ (by decide)), (h c main_arg1).trans (arg_eq _ (by decide)),
      (h c main_arg2).trans (arg_eq _ (by decide)), (h c main_arg3).trans (arg_eq _ (by decide)),
      (h c main_arg4).trans (arg_eq _ (by decide)), (h c main_arg5).trans (arg_eq _ (by decide)),
      (h c main_arg6).trans (arg_eq _ (by decide)), (h c main_arg7).trans (arg_eq _ (by decide)),
      (h c main_arg8).trans (arg_eq _ (by decide))⟩)
    (run_seq scopedRefs_eq scopedSems_eq defs main (fun _ => ops) main_eq (fun _ => ops_sub) m ρ)

end Cert.ReferenceIdeal.Hand

end
-- ==== Proof.KerTerm.lean ====
/-
  The kernel program's host-side preparation as terms of its argument arrays: each endpoint's gathered rows
  (index normalisation, range mask, fill value) and the zero padding of the 400000 rows to 409600.
-/
import proofs.«410346_j49031346651535_4_alg».proof.Proof.Gen.KernelIdeal
import Idealize.ShloMosaic.PureOps.Ideal

noncomputable section

namespace Cert.KernelIdeal.Hand

open Idealize.ShloMosaic Cert.KernelIdeal Cert.KernelIdeal.Facts₀ Cert.KernelIdeal.Facts

variable {F : FTy → Type} [FloatOps F]

/-- One row of the index pairs as a flat vector of 400000 words. -/
def idxRow0 (idx : IVec S2x400000 32) : IVec S400000 32 :=
  shapeCast S400000 (extractStridedSlice S1x400000 ![0, 0] idx slices_S2x400000_S1x400000_0_0) shapeCasts_S1x400000_S400000
def idxRow1 (idx : IVec S2x400000 32) : IVec S400000 32 :=
  shapeCast S400000 (extractStridedSlice S1x400000 ![1, 0] idx slices_S2x400000_S1x400000_1_0) shapeCasts_S1x400000_S400000

/-- The index words after jnp.take's normalisation (a negative word counts from the end), as a column. -/
def normK (i : IVec S400000 32) : IVec S400000x1 32 :=
  broadcastInDim S400000x1 ![0] bcast_S400000_S400000x1_0
    (select (cmpi .slt i (broadcastInDim S400000 ![] bcast_S_S400000 (constantI S_ 32 0#32)))
      (addi i (broadcastInDim S400000 ![] bcast_S_S400000 (constantI S_ 32 50000#32))) i)

/-- The mask of words that name a row of the table. -/
def maskK (i : IVec S400000 32) : IVec S400000 1 :=
  Host.reduce IntOp.andi
    (andi (cmpi .sge (normK i) (broadcastInDim S400000x1 ![] bcast_S_S400000x1 (constantI S_ 32 0#32)))
      (cmpi .sle (normK i) (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

/-- jnp.take(x, i, axis=0) for a vector of 400000 words: the gathered rows, the fill value where the word is out of range. -/
def takeK (x : FVec F S50000x128 .f32) (i : IVec S400000 32) : FVec F S400000x128 .f32 :=
  select (broadcastInDim S400000x128 ![0] bcast_S400000_S400000x128_0 (maskK i))
    (Host.gather gather_S50000x128_S400000x1_S400000x128_1_0_n_n_0_1_1128 x (normK i))
    (broadcastInDim S400000x128 ![] bcast_S_S400000x128 (constant S_ .f32 0x7FC00000#32))

/-- 9600 rows of the converted integer zero appended below the 400000 rows. -/
def padK (a : FVec F S400000x128 .f32) : FVec F S409600x128 .f32 :=
  pad S409600x128 ![0, 0] ![9600, 0] ![0, 0] a (sitofp (F := F) .f32 (constantI S_ 32 0#32)) pads_S400000x128_S409600x128_096000_000 h_S_

end Cert.KernelIdeal.Hand

end
-- ==== Proof.LibGather.lean ====
/-
  Two host operations read at one index, for the shapes jnp.take(table, words, axis=0) prints over a rank-two table:

  * the row gather: result entry (e, k) — or (e, j, k) for a two-column array of words — is the table's entry
    (row, k) with `row` the start word of that position read signed and clamped into the table's rows;
  * a reduction by `and` over a trailing axis of extent one: the result at a position is the initial bit `and`
    the one operand bit that reduces into it.
-/
import Idealize.ShloMosaic.PureOps
import Idealize.ShloMosaic.PureOps.Reduce
import Idealize.ShloMosaic.Lib.ValueIdx

namespace Cert.LibGather

open Idealize.ShloMosaic Idealize.ShloMosaic.ValueIdx

variable {α : Type}

/-- THE ROW GATHER, start words in an [R, 1] column: result entry (e, k) is the table's entry (row, k), the row being
    the start word at (e, 0) read signed and clamped into [0, N − 1]. The hypotheses are the printed dimension numbers
    (offset axis 1, operand axis 0 collapsed and start-indexed, the index vector on axis 1, slices of one row).
    On operand axis 0 (collapsed, named by the start index map) the coordinate is the clamped start word, the batching
    and offset contributions being zero; on operand axis 1 (an offset axis the start index map does not name) the start
    is zero and the offset coordinate is the result's last coordinate. -/
theorem gather_rows_col_apply {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![R, 1]⟩ w) (e : Fin R) (k : Fin C) :
    Host.gather d x idx (ix2 e k) = x (ix2 ⟨min (idx (ix2 e (0 : Fin 1))).toInt.toNat (N - 1), by omega⟩ k) := by
  obtain ⟨od, cd, ob, sb, sm, iv, ss, wf⟩ := d
  simp only at hoff hcoll hob hsim hivd hss
  subst hoff hcoll hob hsim hivd hss
  unfold Host.gather
  congr 1
  funext a
  refine Fin.ext ?_
  match a with
  | ⟨0, _⟩ =>
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start word is read at the result's batch coordinate with 0 on the index vector's axis
    refine congrArg₂ (fun p q => min (idx p).toInt.toNat q) ?_ rfl
    funext b
    refine Fin.ext ?_
    match b with
    | ⟨0, _⟩ => rfl
    | ⟨1, _⟩ => rfl
  | ⟨1, _⟩ =>
    show GatherDims.start _ (ix2 e k) idx 1 + GatherDims.batchCoord _ (ix2 e k) 1 + GatherDims.offCoord _ (ix2 e k) 1 = _
    rw [GatherDims.batchCoord_eq_zero _ _ _ List.not_mem_nil]
    unfold GatherDims.start GatherDims.offCoord
    rw [dif_neg (show (1 : Fin 2) ∉ [0] from by decide),
      dif_pos ((GatherDims.mem_sKept _ _).mpr ⟨show (1 : Fin 2) ∉ [0] from by decide, List.not_mem_nil⟩)]
    simp only [Nat.zero_add]
    rfl

/-- THE ROW GATHER, start words in an [R, J, 1] array: result entry (e, j, k) is the table's entry (row, k), the row
    being the start word at (e, j, 0) read signed and clamped into [0, N − 1]. -/
theorem gather_rows_pair_apply {N C R J w : Nat} (hN : 0 < N)
    (d : GatherDims ⟨2, ![N, C]⟩ ⟨3, ![R, J, 1]⟩ ⟨3, ![R, J, C]⟩)
    (hoff : d.offsetDims = [2]) (hcoll : d.collapsedSliceDims = [0]) (hob : d.operandBatchingDims = [])
    (hsim : d.startIndexMap = [0]) (hivd : d.indexVectorDim = 2) (hss : d.sliceSizes = ![1, C])
    (x : (⟨2, ![N, C]⟩ : Shape).Idx → α) (idx : IVec ⟨3, ![R, J, 1]⟩ w) (e : Fin R) (j : Fin J) (k : Fin C) :
    Host.gather d x idx (ix3 e j k) = x (ix2 ⟨min (idx (ix3 e j (0 : Fin 1))).toInt.toNat (N - 1), by omega⟩ k) := by
  obtain ⟨od, cd, ob, sb, sm, iv, ss, wf⟩ := d
  simp only at hoff hcoll hob hsim hivd hss
  subst hoff hcoll hob hsim hivd hss
  unfold Host.gather
  congr 1
  funext a
  refine Fin.ext ?_
  match a with
  | ⟨0, _⟩ =>
    show GatherDims.start _ (ix3 e j k) idx 0 + GatherDims.batchCoord _ (ix3 e j k) 0
      + GatherDims.offCoord _ (ix3 e j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start word is read at the result's two batch coordinates with 0 on the index vector's axis
    refine congrArg₂ (fun p q => min (idx p).toInt.toNat q) ?_ rfl
    funext b
    refine Fin.ext ?_
    match b with
    | ⟨0, _⟩ => rfl
    | ⟨1, _⟩ => rfl
    | ⟨2, _⟩ => rfl
  | ⟨1, _⟩ =>
    show GatherDims.start _ (ix3 e j k) idx 1 + GatherDims.batchCoord _ (ix3 e j k) 1
      + GatherDims.offCoord _ (ix3 e j k) 1 = _
    rw [GatherDims.batchCoord_eq_zero _ _ _ List.not_mem_nil]
    unfold GatherDims.start GatherDims.offCoord
    rw [dif_neg (show (1 : Fin 2) ∉ [0] from by decide),
      dif_pos ((GatherDims.mem_sKept _ _).mpr ⟨show (1 : Fin 2) ∉ [0] from by decide, List.not_mem_nil⟩)]
    simp only [Nat.zero_add]
    rfl

/-- Dropping the unit trailing axis of an index (e, c) keeps its leading coordinate. -/
theorem drop_col_val {R : Nat} (h : (⟨2, ![R, 1]⟩ : Shape).ReducesTo [1] ⟨1, ![R]⟩)
    (i : (⟨2, ![R, 1]⟩ : Shape).Idx) : ((h.drop i 0 : Fin _) : Nat) = ((i 0 : Fin _) : Nat) := rfl

/-- The one index of an [R, 1] array that drops to (e) is (e, 0). -/
theorem drop_col_eq_iff {R : Nat} (h : (⟨2, ![R, 1]⟩ : Shape).ReducesTo [1] ⟨1, ![R]⟩)
    (i : (⟨2, ![R, 1]⟩ : Shape).Idx) (e : Fin R) : h.drop i = ix1 e ↔ i = ix2 e (0 : Fin 1) := by
  constructor
  · intro hi
    have h0 : ((i 0 : Fin _) : Nat) = e.val := by
      rw [← drop_col_val h i, hi]; rfl
    funext a
    match a with
    | ⟨0, _⟩ => exact Fin.ext h0
    | ⟨1, _⟩ => exact Fin.ext (by have := idx2_lt1 i; show (i 1).val = 0; omega)
  · rintro rfl
    funext b
    match b with
    | ⟨0, _⟩ => exact Fin.ext (drop_col_val h _)

/-- A reduction by `and` of an [R, 1] array of bits along its unit axis: position `e` is the initial bit `and` the
    bit at (e, 0). The set of indices reducing into `e` is the singleton {(e, 0)}, and `and` commutes. -/
theorem reduce_andi_col_apply {R : Nat} {u : Shape} (y : IVec ⟨2, ![R, 1]⟩ 1) (init : u.Idx → BitVec 1)
    (h : (⟨2, ![R, 1]⟩ : Shape).ReducesTo [1] ⟨1, ![R]⟩) (hu : 0 < u.numel) (e : Fin R) :
    Host.reduce IntOp.andi y init h hu (ix1 e) = IntOp.andi (init (Shape.Idx.first hu)) (y (ix2 e (0 : Fin 1))) := by
  rw [Host.reduce_eq_fold]
  have hset : (Finset.univ.filter fun i => h.drop i = ix1 e) = {ix2 e (0 : Fin 1)} := by
    ext i
    simp only [Finset.mem_filter, Finset.mem_univ, true_and, Finset.mem_singleton]
    exact drop_col_eq_iff h i e
  rw [hset, Finset.fold_singleton]
  exact Std.Commutative.comm _ _

/-- Dropping the unit trailing axis of an index (e, j, c) keeps its first coordinate … -/
theorem drop_pair_val0 {R J : Nat} (h : (⟨3, ![R, J, 1]⟩ : Shape).ReducesTo [2] ⟨2, ![R, J]⟩)
    (i : (⟨3, ![R, J, 1]⟩ : Shape).Idx) : ((h.drop i 0 : Fin _) : Nat) = ((i 0 : Fin _) : Nat) := rfl

/-- … and its second. -/
theorem drop_pair_val1 {R J : Nat} (h : (⟨3, ![R, J, 1]⟩ : Shape).ReducesTo [2] ⟨2, ![R, J]⟩)
    (i : (⟨3, ![R, J, 1]⟩ : Shape).Idx) : ((h.drop i 1 : Fin _) : Nat) = ((i 1 : Fin _) : Nat) := rfl

/-- The one index of an [R, J, 1] array that drops to (e, j) is (e, j, 0). -/
theorem drop_pair_eq_iff {R J : Nat} (h : (⟨3, ![R, J, 1]⟩ : Shape).ReducesTo [2] ⟨2, ![R, J]⟩)
    (i : (⟨3, ![R, J, 1]⟩ : Shape).Idx) (e : Fin R) (j : Fin J) : h.drop i = ix2 e j ↔ i = ix3 e j (0 : Fin 1) := by
  constructor
  · intro hi
    have h0 : ((i 0 : Fin _) : Nat) = e.val := by
      rw [← drop_pair_val0 h i, hi]; rfl
    have h1 : ((i 1 : Fin _) : Nat) = j.val := by
      rw [← drop_pair_val1 h i, hi]; rfl
    funext a
    match a with
    | ⟨0, _⟩ => exact Fin.ext h0
    | ⟨1, _⟩ => exact Fin.ext h1
    | ⟨2, _⟩ => exact Fin.ext (by have : (i 2).val < 1 := (i 2).isLt; show (i 2).val = 0; omega)
  · rintro rfl
    funext b
    match b with
    | ⟨0, _⟩ => exact Fin.ext (drop_pair_val0 h _)
    | ⟨1, _⟩ => exact Fin.ext (drop_pair_val1 h _)

/-- The same for an [R, J, 1] array along its unit axis: position (e, j) is the initial bit `and` the bit at (e, j, 0). -/
theorem reduce_andi_pair_apply {R J : Nat} {u : Shape} (y : IVec ⟨3, ![R, J, 1]⟩ 1) (init : u.Idx → BitVec 1)
    (h : (⟨3, ![R, J, 1]⟩ : Shape).ReducesTo [2] ⟨2, ![R, J]⟩) (hu : 0 < u.numel) (e : Fin R) (j : Fin J) :
    Host.reduce IntOp.andi y init h hu (ix2 e j) = IntOp.andi (init (Shape.Idx.first hu)) (y (ix3 e j (0 : Fin 1))) := by
  rw [Host.reduce_eq_fold]
  have hset : (Finset.univ.filter fun i => h.drop i = ix2 e j) = {ix3 e j (0 : Fin 1)} := by
    ext i
    simp only [Finset.mem_filter, Finset.mem_univ, true_and, Finset.mem_singleton]
    exact drop_pair_eq_iff h i e j
  rw [hset, Finset.fold_singleton]
  exact Std.Commutative.comm _ _

end Cert.LibGather
-- ==== Proof.KerTake.lean ====
/-
  The kernel program's gathered rows, padding and index rows read at one entry.
-/
import proofs.«410346_j49031346651535_4_alg».proof.Proof.KerTerm
import proofs.«410346_j49031346651535_4_alg».proof.Proof.Spec
import proofs.«410346_j49031346651535_4_alg».proof.Proof.LibGather
import Idealize.ShloMosaic.Lib.ValueIdx
import Idealize.ShloMosaic.Lib.Pipeline.Value
import Idealize.ShloMosaic.Lib.KernelVsHost

noncomputable section

namespace Cert.KernelIdeal.Hand

open Idealize.ShloMosaic Idealize.ShloMosaic.ValueIdx Cert.KernelIdeal

/-- The normalised index column at row `e` is the normalisation of the word at `e`: the column is the flat vector of
    normalised words broadcast along a new unit axis, and the comparison, the addition and the selection act entry by
    entry on words broadcast from constants. -/
theorem normK_apply (i : IVec S400000 32) (e : Fin 400000) :
    normK i (ix2 e (0 : Fin 1)) = Cert.Spec.normIdx (i (ix1 e)) := by
  unfold normK
  rw [broadcastInDim_apply _ _ _ (ix2 e (0 : Fin 1)) (ix1 e) (fun a => by
    match a with
    | ⟨0, _⟩ => rfl)]
  rfl

/-- The bit 1 is the identity of `and` on bits. -/
theorem and_one_left (b : BitVec 1) : IntOp.andi 1#1 b = b := by
  unfold IntOp.andi
  revert b
  decide

/-- The range mask at `e` is the range bit of the word at `e`: the reduction over the column's unit axis folds the one
    bit at (e, 0) into the initial bit 1. -/
theorem maskK_apply (i : IVec S400000 32) (e : Fin 400000) :
    maskK i (ix1 e) = Cert.Spec.rowOk (i (ix1 e)) := by
  unfold maskK
  rw [Cert.LibGather.reduce_andi_col_apply]
  show IntOp.andi 1#1 (IntOp.andi (IntOp.cmpi .sge (normK i (ix2 e (0 : Fin 1))) 0#32)
        (IntOp.cmpi .sle (normK i (ix2 e (0 : Fin 1))) 49999#32)) = _
  rw [and_one_left, normK_apply]
  rfl

/-- Entry (e, k) of the gathered rows is entry `k` of the table row the word at `e` selects. -/
theorem takeK_apply (x : FVec Ideal S50000x128 .f32) (i : IVec S400000 32) (e : Fin 400000) (k : Fin 128) :
    takeK (F := Ideal) x i (ix2 e k) = Cert.Spec.takeVal x (i (ix1 e)) k := by
  unfold takeK
  rw [select_apply]
  rw [broadcastInDim_apply _ _ (maskK i) (ix2 e k) (ix1 e) (fun a => by
    match a with
    | ⟨0, _⟩ => rfl)]
  rw [maskK_apply]
  rw [Cert.LibGather.gather_rows_col_apply (by decide) _ rfl rfl rfl rfl rfl rfl]
  simp only [normK_apply]
  rfl

/-- A row below 400000 of the padded array is the row itself. -/
theorem padK_apply (a : FVec Ideal S400000x128 .f32) (e : Fin 400000) (k : Fin 128) :
    padK (F := Ideal) a (ix2 (⟨e.val, by omega⟩ : Fin 409600) k) = a (ix2 e k) := by
  unfold padK
  exact pad_apply_of_inside _ _ _ a _ _ _ _ (ix2 e k) (fun ax => by
    match ax with
    | ⟨0, _⟩ => show e.val = 0 + e.val * (0 + 1); omega
    | ⟨1, _⟩ => show k.val = 0 + k.val * (0 + 1); omega)

/-- Entry `e` of the first row of index pairs. -/
theorem idxRow0_apply (idx : IVec S2x400000 32) (e : Fin 400000) : idxRow0 idx (ix1 e) = idx (ix2 (0 : Fin 2) e) := by
  unfold idxRow0
  rw [shapeCast_apply _ _ (ix1 e) (ix2 (0 : Fin 1) e) (by
    rw [Shape.rowMajor_val_two, Shape.rowMajor_val_one]
    show (0 : Nat) * 400000 + e.val = e.val
    omega)]
  exact extractStridedSlice_apply _ idx _ (ix2 (0 : Fin 1) e) (ix2 (0 : Fin 2) e) (fun ax => by
    match ax with
    | ⟨0, _⟩ => rfl
    | ⟨1, _⟩ => exact (Nat.zero_add _).symm)

/-- Entry `e` of the second row of index pairs. -/
theorem idxRow1_apply (idx : IVec S2x400000 32) (e : Fin 400000) : idxRow1 idx (ix1 e) = idx (ix2 (1 : Fin 2) e) := by
  unfold idxRow1
  rw [shapeCast_apply _ _ (ix1 e) (ix2 (0 : Fin 1) e) (by
    rw [Shape.rowMajor_val_two, Shape.rowMajor_val_one]
    show (0 : Nat) * 400000 + e.val = e.val
    omega)]
  exact extractStridedSlice_apply _ idx _ (ix2 (0 : Fin 1) e) (ix2 (1 : Fin 2) e) (fun ax => by
    match ax with
    | ⟨0, _⟩ => rfl
    | ⟨1, _⟩ => exact (Nat.zero_add _).symm)

end Cert.KernelIdeal.Hand

end
-- ==== Proof.KerPrefix.lean ====
/-
  What the kernel region finds in its operand arrays: the host operations before it, read at one entry.
  Rows below 400000 of the three padded arrays are the edge rows and the two endpoints' table rows; the
  first-layer weights arrive unchanged (a change of float format is the identity on the extended reals).
-/
import proofs.«410346_j49031346651535_4_alg».proof.Proof.Gen.KernelIdeal.Frame
import proofs.«410346_j49031346651535_4_alg».proof.Proof.KerTerm
import proofs.«410346_j49031346651535_4_alg».proof.Proof.KerTake
import proofs.«410346_j49031346651535_4_alg».proof.Proof.Spec
import proofs.«410346_j49031346651535_4_alg».proof.Proof.LibGather
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Hand

open Idealize.ShloMosaic Idealize.ShloMosaic.ValueIdx Idealize.ShloMosaic.TcCoe Cert.KernelIdeal Cert.KernelIdeal.Gen

variable (m : (ℓ : Loc nD τ sig) → Buf (Elt Ideal) ℓ)

/-! ## The four operand arrays as terms of the argument arrays

Each array is written once by the host operations before the region; following the operations back from the
array's buffer to the argument buffers composes their functions into one term. -/

/-- The first-layer weights after the change of float format. -/
theorem V_v9_whole (c : Dev nD) :
    (V m c main_v9 : S384x50.Idx → EReal)
      = truncf (F := Ideal) .bf16 (m ((c : Thread nD τ).loc main_arg3) : S384x50.Idx → EReal) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp

/-- The edge rows, padded below with 9600 rows of the converted integer zero. -/
theorem V_v6_whole (c : Dev nD) :
    (V m c main_v6 : S409600x128.Idx → EReal)
      = padK (F := Ideal) (m ((c : Thread nD τ).loc main_arg1) : S400000x128.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-- The source endpoints' gathered table rows, padded: the first row of index pairs, normalised, masked, gathered. -/
theorem V_v7_whole (c : Dev nD) :
    (V m c main_v7 : S409600x128.Idx → EReal)
      = padK (F := Ideal) (takeK (F := Ideal) (m ((c : Thread nD τ).loc main_arg0))
          (idxRow0 (m ((c : Thread nD τ).loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  simp only [StableHlo.TRef.toBuf, StableHlo.TRef.ofBuf, cast_eq]
  unfold padK takeK maskK normK idxRow0
  rfl

/-- The destination endpoints' gathered table rows, padded: the same from the second row of index pairs. -/
theorem V_v8_whole (c : Dev nD) :
    (V m c main_v8 : S409600x128.Idx → EReal)
      = padK (F := Ideal) (takeK (F := Ideal) (m ((c : Thread nD τ).loc main_arg0))
          (idxRow1 (m ((c : Thread nD τ).loc main_arg2)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  simp only [StableHlo.TRef.toBuf, StableHlo.TRef.ofBuf, cast_eq]
  unfold padK takeK maskK normK idxRow1
  rfl

/-! ## The arrays read at one entry -/

/-- Row `e < 400000` of the padded edge rows is the edge's own row. -/
theorem V_v6_row (c : Dev nD) (e : Fin 400000) (k : Fin 128) :
    (V m c main_v6 : S409600x128.Idx → EReal) (ix2 ⟨e.val, by omega⟩ k)
      = (m ((c : Thread nD τ).loc main_arg1) : S400000x128.Idx → EReal) (ix2 e k) :=
  (congrFun (V_v6_whole m c) _).trans (padK_apply _ e k)

/-- Row `e < 400000` of the padded source rows is the table row the word `edge_index[0, e]` selects. -/
theorem V_v7_row (c : Dev nD) (e : Fin 400000) (k : Fin 128) :
    (V m c main_v7 : S409600x128.Idx → EReal) (ix2 ⟨e.val, by omega⟩ k)
      = Cert.Spec.takeVal (m ((c : Thread nD τ).loc main_arg0))
          ((m ((c : Thread nD τ).loc main_arg2) : S2x400000.Idx → BitVec 32) (ix2 (0 : Fin 2) e)) k :=
  (congrFun (V_v7_whole m c) _).trans ((padK_apply _ e k).trans ((takeK_apply _ _ e k).trans (by
    rw [idxRow0_apply])))

/-- Row `e < 400000` of the padded destination rows is the table row the word `edge_index[1, e]` selects. -/
theorem V_v8_row (c : Dev nD) (e : Fin 400000) (k : Fin 128) :
    (V m c main_v8 : S409600x128.Idx → EReal) (ix2 ⟨e.val, by omega⟩ k)
      = Cert.Spec.takeVal (m ((c : Thread nD τ).loc main_arg0))
          ((m ((c : Thread nD τ).loc main_arg2) : S2x400000.Idx → BitVec 32) (ix2 (1 : Fin 2) e)) k :=
  (congrFun (V_v8_whole m c) _).trans ((padK_apply _ e k).trans ((takeK_apply _ _ e k).trans (by
    rw [idxRow1_apply])))

/-- The first-layer weights reach the region unchanged. -/
theorem V_v9_eq (c : Dev nD) :
    (V m c main_v9 : S384x50.Idx → EReal) = (m ((c : Thread nD τ).loc main_arg3) : S384x50.Idx → EReal) :=
  (V_v9_whole m c).trans (funext fun i => truncf_apply _ _ i)

end Cert.KernelIdeal.Hand

end
-- ==== Proof.RefValue.lean ====
/-
  The reference's result read at one edge: the composed host operations at entry (e, 0) are the three-layer
  perceptron of the edge's 384 features, the first product as one sum.
-/
import proofs.«410346_j49031346651535_4_alg».proof.Proof.RefTerm
import proofs.«410346_j49031346651535_4_alg».proof.Proof.Spec
import proofs.«410346_j49031346651535_4_alg».proof.Proof.LibGather
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.Hand

open Idealize.ShloMosaic Idealize.ShloMosaic.ValueIdx Cert.ReferenceIdeal

/-! ## The gather with its normalisation and range mask, at one entry -/

/-- The normalised word at (e, j, 0) is the scalar normalisation of the word at (e, j). -/
theorem normR_apply (i : IVec S400000x2 32) (e : Fin 400000) (j : Fin 2) :
    normR i (ix3 e j (0 : Fin 1)) = Cert.Spec.normIdx (i (ix2 e j)) := by
  unfold normR
  refine (broadcastInDim_apply _ _ _ (ix3 e j (0 : Fin 1)) (ix2 e j) ?_).trans ?_
  · intro a
    match a with
    | ⟨0, _⟩ => rfl
    | ⟨1, _⟩ => rfl
  · rfl

/-- `and` with the set bit changes nothing. -/
theorem andi_one_left (b : BitVec 1) : IntOp.andi 1#1 b = b := by
  rcases BitVec.eq_zero_or_eq_one b with h | h <;> subst h <;> decide

/-- The range mask at (e, j) is the scalar range bit of the word at (e, j). -/
theorem maskR_apply (i : IVec S400000x2 32) (e : Fin 400000) (j : Fin 2) :
    maskR i (ix2 e j) = Cert.Spec.rowOk (i (ix2 e j)) := by
  unfold maskR
  refine (Cert.LibGather.reduce_andi_pair_apply _ _ _ _ e j).trans ?_
  refine (andi_one_left _).trans ?_
  show IntOp.andi (IntOp.cmpi .sge (normR i (ix3 e j (0 : Fin 1))) _) (IntOp.cmpi .sle (normR i (ix3 e j (0 : Fin 1))) _) = _
  rw [normR_apply]
  rfl

/-- `jnp.take` at (e, j, k): the selected table row's entry k, or the fill value. -/
theorem takeR_apply (x : FVec Ideal S50000x128 .f32) (i : IVec S400000x2 32) (e : Fin 400000) (j : Fin 2) (k : Fin 128) :
    takeR (F := Ideal) x i (ix3 e j k) = Cert.Spec.takeVal x (i (ix2 e j)) k := by
  unfold takeR
  rw [select_apply]
  have hm : broadcastInDim S400000x2x128 ![0, 1] Facts₀.bcast_S400000x2_S400000x2x128_0_1 (maskR i) (ix3 e j k)
      = Cert.Spec.rowOk (i (ix2 e j)) := by
    refine (broadcastInDim_apply _ _ _ (ix3 e j k) (ix2 e j) ?_).trans (maskR_apply i e j)
    intro a
    match a with
    | ⟨0, _⟩ => rfl
    | ⟨1, _⟩ => rfl
  have hg : Host.gather gather_S50000x128_S400000x2x1_S400000x2x128_2_0_n_n_0_2_1128 x (normR i) (ix3 e j k)
      = x (ix2 ⟨min (Cert.Spec.normIdx (i (ix2 e j))).toInt.toNat 49999, by omega⟩ k) := by
    refine (Cert.LibGather.gather_rows_pair_apply (N := 50000) (C := 128) (R := 400000) (J := 2) (by decide)
      gather_S50000x128_S400000x2x1_S400000x2x128_2_0_n_n_0_2_1128 rfl rfl rfl rfl rfl rfl x (normR i) e j k).trans ?_
    have hn := normR_apply i e j
    exact congrArg (fun r => x (ix2 r k)) (Fin.ext (by
      show min (normR i (ix3 e j (0 : Fin 1))).toInt.toNat (50000 - 1) = min (Cert.Spec.normIdx (i (ix2 e j))).toInt.toNat 49999
      rw [hn]))
  rw [hm, hg]
  rfl

/-- The transposed index array at (e, j) is the index array at (j, e). -/
theorem transpose_idx_apply (idx : IVec S2x400000 32) (e : Fin 400000) (j : Fin 2) :
    transpose S400000x2 [1, 0] idx Facts₀.transposes_S2x400000_S400000x2_1_0 (ix2 e j) = idx (ix2 j e) := by
  refine transpose_apply _ _ _ (ix2 e j) (ix2 j e) ?_
  intro b
  match b with
  | ⟨0, _⟩ => rfl
  | ⟨1, _⟩ => rfl

/-! ## The 384 feature columns at one entry -/

/-- A column below 256 of the feature array is the rectified gathered entry (c / 128, c % 128). -/
theorem featR_apply_lt (x : FVec Ideal S50000x128 .f32) (ea : FVec Ideal S400000x128 .f32) (idx : IVec S2x400000 32)
    (e : Fin 400000) (c : Fin 384) (hc : c.val < 256) :
    featR (F := Ideal) x ea idx (ix2 e c)
      = max (Cert.Spec.takeVal x (idx (ix2 (⟨c.val / 128, by omega⟩ : Fin 2) e)) (⟨c.val % 128, by omega⟩ : Fin 128)) 0 := by
  unfold featR
  refine (concatenate_pair_apply_left (t := S400000x384) (s₁ := S400000x256) (s₂ := S400000x128) _ _ _ _ (ix2 e c) rfl (ix2 e (⟨c.val, hc⟩ : Fin 256)) ?_).trans ?_
  · intro b
    match b with
    | ⟨0, _⟩ => rfl
    | ⟨1, _⟩ => rfl
  · rw [maximumf_apply]
    have hs : shapeCast S400000x256 (takeR (F := Ideal) x (transpose S400000x2 [1, 0] idx Facts₀.transposes_S2x400000_S400000x2_1_0))
          Facts₀.shapeCasts_S400000x2x128_S400000x256 (ix2 e (⟨c.val, hc⟩ : Fin 256))
        = takeR (F := Ideal) x (transpose S400000x2 [1, 0] idx Facts₀.transposes_S2x400000_S400000x2_1_0)
            (ix3 e (⟨c.val / 128, by omega⟩ : Fin 2) (⟨c.val % 128, by omega⟩ : Fin 128)) := by
      refine shapeCast_apply _ _ _ _ ?_
      rw [Shape.rowMajor_val_three, Shape.rowMajor_val_two]
      show (e.val * 2 + c.val / 128) * 128 + c.val % 128 = e.val * 256 + c.val
      omega
    have hz : broadcastInDim S400000x256 ![] Facts₀.bcast_S_S400000x256 (constant (F := Ideal) S_ .f32 0x00000000#32)
        (ix2 e (⟨c.val, hc⟩ : Fin 256)) = 0 := by
      show Ideal.ofBits .f32 0x00000000#32 = 0
      exact Ideal.ofBits_zero_f32
    rw [hs, hz, takeR_apply, transpose_idx_apply]

/-- A column from 256 on of the feature array is the edge row's entry c − 256. -/
theorem featR_apply_ge (x : FVec Ideal S50000x128 .f32) (ea : FVec Ideal S400000x128 .f32) (idx : IVec S2x400000 32)
    (e : Fin 400000) (c : Fin 384) (hc : 256 ≤ c.val) :
    featR (F := Ideal) x ea idx (ix2 e c) = ea (ix2 e (⟨c.val - 256, by omega⟩ : Fin 128)) := by
  unfold featR
  refine concatenate_pair_apply_right (t := S400000x384) (s₁ := S400000x256) (s₂ := S400000x128) _ _ _ _ (ix2 e c) rfl rfl (ix2 e (⟨c.val - 256, by omega⟩ : Fin 128)) ?_ ?_
  · intro b hb
    match b, hb with
    | ⟨0, _⟩, _ => rfl
    | ⟨1, _⟩, hb => exact absurd (Fin.ext rfl) hb
  · show (c.val - 256) + 256 = c.val
    omega

/-- The feature array at (e, c) is entry c of the two rectified endpoint rows followed by the edge's own row. -/
theorem featR_apply (x : FVec Ideal S50000x128 .f32) (ea : FVec Ideal S400000x128 .f32) (idx : IVec S2x400000 32)
    (e : Fin 400000) (c : Fin 384) :
    featR (F := Ideal) x ea idx (ix2 e c)
      = Cert.Spec.cat (fun k => Cert.Spec.takeVal x (idx (ix2 (0 : Fin 2) e)) k)
          (fun k => Cert.Spec.takeVal x (idx (ix2 (1 : Fin 2) e)) k) (fun k => ea (ix2 e k)) c := by
  unfold Cert.Spec.cat
  by_cases h1 : c.val < 128
  · have e0 : (⟨c.val / 128, by omega⟩ : Fin 2) = 0 := Fin.ext (by show c.val / 128 = 0; omega)
    have e1 : (⟨c.val % 128, by omega⟩ : Fin 128) = ⟨c.val, h1⟩ := Fin.ext (by show c.val % 128 = c.val; omega)
    rw [dif_pos h1, featR_apply_lt x ea idx e c (by omega), e0, e1]
  · by_cases h2 : c.val < 256
    · have e0 : (⟨c.val / 128, by omega⟩ : Fin 2) = 1 := Fin.ext (by show c.val / 128 = 1; omega)
      have e1 : (⟨c.val % 128, by omega⟩ : Fin 128) = ⟨c.val - 128, by omega⟩ :=
        Fin.ext (by show c.val % 128 = c.val - 128; omega)
      rw [dif_neg h1, dif_pos h2, featR_apply_lt x ea idx e c h2, e0, e1]
    · rw [dif_neg h1, dif_neg h2, featR_apply_ge x ea idx e c (by omega)]

/-! ## The three products, the bias rows and the rectifiers at one entry -/

/-- The first product at (e, n): the sum over the 384 contracted columns. -/
theorem dot1_apply (A : FVec Ideal S400000x384 .f32) (W : FVec Ideal S384x50 .f32) (e : Fin 400000) (n : Fin 50) :
    Host.dotGeneral dot_S400000x384_S384x50_S400000x50_1_0_0_1_n_n none A W (ix2 e n)
      = ∑ c : Fin 384, A (ix2 e c) * W (ix2 c n) :=
  StackMember.dotGeneral_plain_apply (m := 400000) (n := 50) (k := 384) none A W e n

/-- The second product at (e, q): the sum over the 50 contracted columns. -/
theorem dot2_apply (A : FVec Ideal S400000x50 .f32) (W : FVec Ideal S50x25 .f32) (e : Fin 400000) (q : Fin 25) :
    Host.dotGeneral dot_S400000x50_S50x25_S400000x25_1_0_0_1_n_n none A W (ix2 e q)
      = ∑ n : Fin 50, A (ix2 e n) * W (ix2 n q) :=
  StackMember.dotGeneral_plain_apply (m := 400000) (n := 25) (k := 50) none A W e q

/-- The third product at (e, 0): the sum over the 25 contracted columns. -/
theorem dot3_apply (A : FVec Ideal S400000x25 .f32) (W : FVec Ideal S25x1 .f32) (e : Fin 400000) (r : Fin 1) :
    Host.dotGeneral dot_S400000x25_S25x1_S400000x1_1_0_0_1_n_n none A W (ix2 e r)
      = ∑ q : Fin 25, A (ix2 e q) * W (ix2 q r) :=
  StackMember.dotGeneral_plain_apply (m := 400000) (n := 1) (k := 25) none A W e r

/-- A bias vector broadcast to a one-row matrix and then to every row reads, at (e, n), the bias entry n. -/
theorem bias_apply {R C : Nat} (b : FVec Ideal ⟨1, ![C]⟩ .f32)
    (h1 : (⟨1, ![C]⟩ : Shape).BroadcastsInDim ⟨2, ![1, C]⟩ (![1] : Fin 1 → Fin 2))
    (h2 : (⟨2, ![1, C]⟩ : Shape).BroadcastsInDim ⟨2, ![R, C]⟩ (![0, 1] : Fin 2 → Fin 2)) (e : Fin R) (n : Fin C) :
    broadcastInDim ⟨2, ![R, C]⟩ ![0, 1] h2 (broadcastInDim ⟨2, ![1, C]⟩ ![1] h1 b) (ix2 e n) = b (ix1 n) := by
  refine (broadcastInDim_apply _ h2 _ (ix2 e n) (ix2 (0 : Fin 1) n) ?_).trans ?_
  · intro a
    match a with
    | ⟨0, _⟩ => rfl
    | ⟨1, _⟩ =>
      show n.val = if C = 1 then 0 else n.val
      have := n.isLt
      split <;> omega
  · refine broadcastInDim_apply _ h1 _ (ix2 (0 : Fin 1) n) (ix1 n) ?_
    intro a
    match a with
    | ⟨0, _⟩ =>
      show n.val = if C = 1 then 0 else n.val
      have := n.isLt
      split <;> omega

/-- A rectifier against the broadcast zero constant, at an entry, is the maximum with zero. -/
theorem relu_apply {s : Shape} (X : FVec Ideal s .f32) (h : S_.BroadcastsInDim s (![] : Fin 0 → Fin s.rank)) (i : s.Idx) :
    maximumf X (broadcastInDim s ![] h (constant (F := Ideal) S_ .f32 0x00000000#32)) i = max (X i) 0 := by
  rw [maximumf_apply]
  have hz : broadcastInDim s ![] h (constant (F := Ideal) S_ .f32 0x00000000#32) i = 0 := by
    show Ideal.ofBits .f32 0x00000000#32 = 0
    exact Ideal.ofBits_zero_f32
  rw [hz]

/-! ## The layers at one entry -/

/-- The first layer after its rectifier, at (e, n). -/
theorem h1R_apply (x : FVec Ideal S50000x128 .f32) (ea : FVec Ideal S400000x128 .f32) (idx : IVec S2x400000 32)
    (W1 : FVec Ideal S384x50 .f32) (b1 : FVec Ideal S50 .f32) (e : Fin 400000) (n : Fin 50) :
    h1R (F := Ideal) x ea idx W1 b1 (ix2 e n)
      = max (Cert.Spec.pre1R (fun k => Cert.Spec.takeVal x (idx (ix2 (0 : Fin 2) e)) k)
          (fun k => Cert.Spec.takeVal x (idx (ix2 (1 : Fin 2) e)) k) (fun k => ea (ix2 e k)) W1 b1 n) 0 := by
  unfold h1R
  rw [relu_apply, addf_apply, dot1_apply,
    bias_apply b1 Facts₀.bcast_S50_S1x50_1 Facts₀.bcast_S1x50_S400000x50_0_1 e n]
  unfold Cert.Spec.pre1R
  simp only [featR_apply]

/-- The second layer after its rectifier, at (e, q), of any first-layer array. -/
theorem h2R_apply (h1 : FVec Ideal S400000x50 .f32) (W2 : FVec Ideal S50x25 .f32) (b2 : FVec Ideal S25 .f32)
    (e : Fin 400000) (q : Fin 25) :
    h2R (F := Ideal) h1 W2 b2 (ix2 e q) = max ((∑ n : Fin 50, h1 (ix2 e n) * W2 (ix2 n q)) + b2 (ix1 q)) 0 := by
  unfold h2R
  rw [relu_apply, addf_apply, dot2_apply,
    bias_apply b2 Facts₀.bcast_S25_S1x25_1 Facts₀.bcast_S1x25_S400000x25_0_1 e q]

/-- Entry (e, 0) of the reference's result. -/
theorem refOut_apply (x : FVec Ideal S50000x128 .f32) (ea : FVec Ideal S400000x128 .f32) (idx : IVec S2x400000 32)
    (W1 : FVec Ideal S384x50 .f32) (b1 : FVec Ideal S50 .f32) (W2 : FVec Ideal S50x25 .f32) (b2 : FVec Ideal S25 .f32)
    (W3 : FVec Ideal S25x1 .f32) (b3 : FVec Ideal S1 .f32) (e : Fin 400000) :
    refOut (F := Ideal) x ea idx W1 b1 W2 b2 W3 b3 (ix2 e (0 : Fin 1))
      = Cert.Spec.mlpR (fun k => Cert.Spec.takeVal x (idx (ix2 (0 : Fin 2) e)) k)
          (fun k => Cert.Spec.takeVal x (idx (ix2 (1 : Fin 2) e)) k) (fun k => ea (ix2 e k)) W1 b1 W2 b2 W3 b3 := by
  unfold refOut
  rw [addf_apply, dot3_apply,
    bias_apply b3 Facts₀.bcast_S1_S1x1_1 Facts₀.bcast_S1x1_S400000x1_0_1 e (0 : Fin 1)]
  unfold Cert.Spec.mlpR Cert.Spec.tail
  simp only [h2R_apply, h1R_apply]

end Cert.ReferenceIdeal.Hand

end
-- ==== Proof.Bridge.lean ====
/-
  The two programs' results are one function of the argument arrays.

  At edge `e` the kernel program's result is the perceptron, first product in three pieces, of the three rows its
  region read at row `e` — the edge's own row and the table rows its two endpoint words select — and the reference's
  result is the perceptron, first product as one sum, of the same three rows. The two groupings of the first product
  agree on the extended reals (`Spec.mlpK_eq_mlpR`), so the results are equal entry by entry.
-/
import proofs.«410346_j49031346651535_4_alg».proof.Proof.KerArray
import proofs.«410346_j49031346651535_4_alg».proof.Proof.KerPrefix
import proofs.«410346_j49031346651535_4_alg».proof.Proof.RefValue
import proofs.«410346_j49031346651535_4_alg».proof.Proof.Spec
import Idealize.ShloMosaic.Lib.ValueIdx

noncomputable section

namespace Cert.Bridge

open Idealize.ShloMosaic Idealize.ShloMosaic.TcCoe Idealize.ShloMosaic.ValueIdx

variable (m : (ℓ : Loc Cert.KernelIdeal.nD Cert.KernelIdeal.τ Cert.KernelIdeal.sig) → Buf (Elt Ideal) ℓ)

/-- The perceptron respects equality of each of its nine inputs. -/
theorem mlpK_congr {s s' d d' a a' : Fin 128 → EReal} {W1 W1' : (⟨2, ![384, 50]⟩ : Shape).Idx → EReal}
    {b1 b1' : (⟨1, ![50]⟩ : Shape).Idx → EReal} {W2 W2' : (⟨2, ![50, 25]⟩ : Shape).Idx → EReal}
    {b2 b2' : (⟨1, ![25]⟩ : Shape).Idx → EReal} {W3 W3' : (⟨2, ![25, 1]⟩ : Shape).Idx → EReal}
    {b3 b3' : (⟨1, ![1]⟩ : Shape).Idx → EReal}
    (hs : ∀ k, s k = s' k) (hd : ∀ k, d k = d' k) (ha : ∀ k, a k = a' k) (h1 : W1 = W1') (hb1 : b1 = b1')
    (h2 : W2 = W2') (hb2 : b2 = b2') (h3 : W3 = W3') (hb3 : b3 = b3') :
    Cert.Spec.mlpK s d a W1 b1 W2 b2 W3 b3 = Cert.Spec.mlpK s' d' a' W1' b1' W2' b2' W3' b3' := by
  obtain rfl : s = s' := funext hs
  obtain rfl : d = d' := funext hd
  obtain rfl : a = a' := funext ha
  subst h1 hb1 h2 hb2 h3 hb3
  rfl

/-- Entry `j` of the output array, spelt over the arrays the region finds. -/
theorem arrK_apply (c : Dev Cert.KernelIdeal.nD) (j : Fin 409600) :
    Cert.KernelIdeal.Hand.arrK m c (ix1 j)
      = Cert.Spec.mlpK (fun k => (Cert.KernelIdeal.Gen.V m c Cert.KernelIdeal.main_v7 : Cert.KernelIdeal.S409600x128.Idx → EReal) (ix2 j k))
          (fun k => (Cert.KernelIdeal.Gen.V m c Cert.KernelIdeal.main_v8 : Cert.KernelIdeal.S409600x128.Idx → EReal) (ix2 j k))
          (fun k => (Cert.KernelIdeal.Gen.V m c Cert.KernelIdeal.main_v6 : Cert.KernelIdeal.S409600x128.Idx → EReal) (ix2 j k))
          (Cert.KernelIdeal.Gen.V m c Cert.KernelIdeal.main_v9) (Cert.KernelIdeal.Gen.V m c Cert.KernelIdeal.main_arg4)
          (Cert.KernelIdeal.Gen.V m c Cert.KernelIdeal.main_arg5) (Cert.KernelIdeal.Gen.V m c Cert.KernelIdeal.main_arg6)
          (Cert.KernelIdeal.Gen.V m c Cert.KernelIdeal.main_arg7) (Cert.KernelIdeal.Gen.V m c Cert.KernelIdeal.main_arg8) := by
  unfold Cert.KernelIdeal.Hand.arrK Cert.KernelIdeal.Hand.outArr
  rfl

/-- The kernel program's result is the reference's composed term of the kernel program's own argument arrays. -/
theorem result_eq (c : Dev Cert.KernelIdeal.nD) :
    Cert.KernelIdeal.Hand.resK m c
      = Cert.ReferenceIdeal.Hand.refOut (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) := by
  funext i
  obtain ⟨e, rfl⟩ : ∃ e : Fin 400000, i = ix2 e (0 : Fin 1) :=
    ⟨i 0, (eq_ix2 i).trans (congrArg (ix2 (i 0)) (Fin.ext (by have h := idx2_lt1 i; show (i 1).val = 0; omega)))⟩
  rw [Cert.ReferenceIdeal.Hand.refOut_apply, ← Cert.Spec.mlpK_eq_mlpR, Cert.KernelIdeal.Hand.resK_apply, arrK_apply]
  exact mlpK_congr (fun k => Cert.KernelIdeal.Hand.V_v7_row m c e k) (fun k => Cert.KernelIdeal.Hand.V_v8_row m c e k)
    (fun k => Cert.KernelIdeal.Hand.V_v6_row m c e k) (Cert.KernelIdeal.Hand.V_v9_eq m c)
    (Cert.KernelIdeal.Gen.V_main_arg4 m c) (Cert.KernelIdeal.Gen.V_main_arg5 m c) (Cert.KernelIdeal.Gen.V_main_arg6 m c)
    (Cert.KernelIdeal.Gen.V_main_arg7 m c) (Cert.KernelIdeal.Gen.V_main_arg8 m c)

end Cert.Bridge

end
-- ==== Proof.lean ====
/-
  The certificate's five claims.

  The three frames: the kernel program's two frames are the generated frame certificates; the reference program is a
  straight line of host operations, so its frame is its run with the result dropped. The idealization rewrote no
  operation, so `preserves` asks nothing. The value claim: at the ideal instance both programs end with the result
  buffer holding, at edge `e`, the three-layer perceptron of the edge's own row and of the two table rows its endpoint
  words select; the kernel program groups the first layer's product in three 128-term pieces and the reference
  takes it as one 384-term sum, and the two groupings agree on the extended reals with no finiteness assumption.
-/
import proofs.«410346_j49031346651535_4_alg».proof.Defs
import proofs.«410346_j49031346651535_4_alg».proof.Proof.Gen.Kernel
import proofs.«410346_j49031346651535_4_alg».proof.Proof.Gen.Kernel.Skeleton
import proofs.«410346_j49031346651535_4_alg».proof.Proof.Gen.Kernel.Launch
import proofs.«410346_j49031346651535_4_alg».proof.Proof.Gen.Kernel.Points
import proofs.«410346_j49031346651535_4_alg».proof.Proof.Gen.Kernel.Frame
import proofs.«410346_j49031346651535_4_alg».proof.Proof.Gen.KernelIdeal
import proofs.«410346_j49031346651535_4_alg».proof.Proof.Gen.KernelIdeal.Skeleton
import proofs.«410346_j49031346651535_4_alg».proof.Proof.Gen.KernelIdeal.Launch
import proofs.«410346_j49031346651535_4_alg».proof.Proof.Gen.KernelIdeal.Points
import proofs.«410346_j49031346651535_4_alg».proof.Proof.Gen.KernelIdeal.Frame
import proofs.«410346_j49031346651535_4_alg».proof.Proof.Gen.ReferenceIdeal
import proofs.«410346_j49031346651535_4_alg».proof.Proof.Gen.Pre_finite_inputs
import proofs.«410346_j49031346651535_4_alg».proof.Proof.KerArray
import proofs.«410346_j49031346651535_4_alg».proof.Proof.RefRun
import proofs.«410346_j49031346651535_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its frame is that run with the result's equation dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- Both programs end with equal results: the kernel program's result is the reference's term of the kernel program's
    arguments (`Bridge.result_eq`), and the reference's arguments agree with them. -/
theorem algebraic : Cert.algebraic_KernelIdeal_ReferenceIdeal := by
  intro m ρ m' ρ' _ hagree
  refine ⟨fun c => Cert.KernelIdeal.Hand.resK m c, Cert.KernelIdeal.Hand.kernel_run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8⟩ := hagree c
  rw [h0, h1, h2, h3, h4, h5, h6, h7, h8]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
